-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x128x128x128 : Shape := ⟨5, ![2, 8, 128, 128, 128]⟩
abbrev S_ : Shape := ⟨0, ![]⟩

class Facts : Prop where
  bcast_S_S2x8x128x128x128 : S_.BroadcastsInDim S2x8x128x128x128 (![] : Fin 0 → Fin S2x8x128x128x128.rank)
  reducesTo_S2x8x128x128x128_S_d0_1_2_3_4 : S2x8x128x128x128.ReducesTo [0, 1, 2, 3, 4] S_
  h_S_ : 0 < S_.numel

variable [Facts]

def fn {F : FTy → Type} [FloatOps F] (main_arg0 : FVec F S2x8x128x128x128 .f32) (main_arg1 : FVec F S2x8x128x128x128 .f32) : IVec S_ 1 :=
  let main_v0 : FVec F S2x8x128x128x128 .f32 := Host.absf main_arg0
  let main_cst : FVec F S_ .f32 := constant S_ .f32 0x7F800000#32
  let main_v1 : FVec F S2x8x128x128x128 .f32 := broadcastInDim S2x8x128x128x128 ![] bcast_S_S2x8x128x128x128 main_cst
  let main_v2 : IVec S2x8x128x128x128 1 := cmpf .olt main_v0 main_v1
  let main_c : IVec S_ 1 := constantI S_ 1 1#1
  let main_v3 : IVec S_ 1 := (fun x v => Host.reduce IntOp.andi x v reducesTo_S2x8x128x128x128_S_d0_1_2_3_4 h_S_) main_v2 main_c
  let main_v4 : FVec F S2x8x128x128x128 .f32 := Host.absf main_arg1
  let main_cst_0 : FVec F S_ .f32 := constant S_ .f32 0x7F800000#32
  let main_v5 : FVec F S2x8x128x128x128 .f32 := broadcastInDim S2x8x128x128x128 ![] bcast_S_S2x8x128x128x128 main_cst_0
  let main_v6 : IVec S2x8x128x128x128 1 := cmpf .olt main_v4 main_v5
  let main_c_1 : IVec S_ 1 := constantI S_ 1 1#1
  let main_v7 : IVec S_ 1 := (fun x v => Host.reduce IntOp.andi x v reducesTo_S2x8x128x128x128_S_d0_1_2_3_4 h_S_) main_v6 main_c_1
  let main_v8 : IVec S_ 1 := andi main_v3 main_v7
  main_v8
-- ==== Kernel.lean ====
abbrev S2x8x128x128x128 : Shape := ⟨5, ![2, 8, 128, 128, 128]⟩
abbrev S16x2097152 : Shape := ⟨2, ![16, 2097152]⟩
abbrev S16x1 : Shape := ⟨2, ![16, 1]⟩
abbrev S16x16384 : Shape := ⟨2, ![16, 16384]⟩
abbrev S16 : Shape := ⟨1, ![16]⟩
abbrev S_ : Shape := ⟨0, ![]⟩

abbrev nBuf : Space → Nat
  | .hbm => 32
  | .vmem => 14
  | .smem => 0
  | _ => 0

abbrev bufTy : (tb : Table) → Fin (tcTables nBuf tb) → BufTy
  | .hbm, ⟨0, _⟩ => ⟨S2x8x128x128x128, .f32⟩
  | .hbm, ⟨1, _⟩ => ⟨S2x8x128x128x128, .f32⟩
  | .hbm, ⟨2, _⟩ => ⟨S16x2097152, .f32⟩
  | .hbm, ⟨3, _⟩ => ⟨S16x2097152, .f32⟩
  | .hbm, ⟨4, _⟩ => ⟨S16x1, .f32⟩
  | .hbm, ⟨5, _⟩ => ⟨S16x1, .f32⟩
  | .hbm, ⟨6, _⟩ => ⟨S16x1, .f32⟩
  | .hbm, ⟨7, _⟩ => ⟨S16x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S_, .f32⟩
  | .hbm, ⟨14, _⟩ => ⟨S16x1, .f32⟩
  | .hbm, ⟨15, _⟩ => ⟨S16x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S_, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S_, .f32⟩
  | .hbm, ⟨26, _⟩ => ⟨S16x1, .f32⟩
  | .hbm, ⟨27, _⟩ => ⟨S16x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S16x16384, .f32⟩
  | .local _ .vmem, ⟨1, _⟩ => ⟨S16x16384, .f32⟩
  | .local _ .vmem, ⟨2, _⟩ => ⟨S16x16384, .f32⟩
  | .local _ .vmem, ⟨3, _⟩ => ⟨S16x16384, .f32⟩
  | .local _ .vmem, ⟨4, _⟩ => ⟨S16x1, .f32⟩
  | .local _ .vmem, ⟨5, _⟩ => ⟨S16x1, .f32⟩
  | .local _ .vmem, ⟨6, _⟩ => ⟨S16x16384, .f32⟩
  | .local _ .vmem, ⟨7, _⟩ => ⟨S16x16384, .f32⟩
  | .local _ .vmem, ⟨8, _⟩ => ⟨S16x16384, .f32⟩
  | .local _ .vmem, ⟨9, _⟩ => ⟨S16x16384, .f32⟩
  | .local _ .vmem, ⟨10, _⟩ => ⟨S16x1, .f32⟩
  | .local _ .vmem, ⟨11, _⟩ => ⟨S16x1, .f32⟩
  | .local _ .vmem, ⟨12, _⟩ => ⟨S16x1, .f32⟩
  | .local _ .vmem, ⟨13, _⟩ => ⟨S16x1, .f32⟩
  | _, _ => ⟨S2x8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_cst_5 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S2x8x128x128x128_S16x2097152 : S2x8x128x128x128.ShapeCasts S16x2097152
  inb_S16x1_S16x1_0_0 : ∀ a, (![0, 0] : Fin 2 → Nat) a + S16x1.size a ≤ S16x1.size a
  h_S16x1 : 0 < S16x1.numel
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  shapeCasts_S16x1_S16x1 : S16x1.ShapeCasts S16x1
  reduces_S16x16384_S16 : S16x16384.Reduces [1] S16
  shapeCasts_S16_S16x1 : S16.ShapeCasts S16x1
  broadcasts_S16x1_S16x16384 : S16x1.Broadcasts S16x16384
  bcast_S_S16x1 : S_.BroadcastsInDim S16x1 (![] : Fin 0 → Fin S16x1.rank)
  reducesTo_S16x1_S_d0_1 : S16x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S16x2097152.size a
  hwx0_0 : ∀ i : grid0.Coords, EltTy.bits .f32 = 32 ∨ (Rect.block (s := S16x2097152) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16384.size a ≤ S16x2097152.size a
  hwx0_1 : ∀ i : grid0.Coords, EltTy.bits .f32 = 32 ∨ (Rect.block (s := S16x2097152) S16x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16384.size a ≤ S16x2097152.size a
  hwx1_0 : ∀ i : grid1.Coords, EltTy.bits .f32 = 32 ∨ (Rect.block (s := S16x2097152) S16x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x16384.size a ≤ S16x2097152.size a
  hwx1_1 : ∀ i : grid1.Coords, EltTy.bits .f32 = 32 ∨ (Rect.block (s := S16x2097152) S16x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)

variable [Facts₀]

abbrev win0_0 : Pipeline.Window sig grid0 :=
  Pipeline.Window.ofSpec (Memref.whole main_v0) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S16x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S16x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S16x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x8x128x128x128 : Shape := ⟨5, ![2, 8, 128, 128, 128]⟩
abbrev S_ : Shape := ⟨0, ![]⟩
abbrev S2x8 : Shape := ⟨2, ![2, 8]⟩
abbrev S2x8x1x1x1 : Shape := ⟨5, ![2, 8, 1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S2x8x128x128x128, .f32⟩
  | .hbm, ⟨1, _⟩ => ⟨S2x8x128x128x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2x8x128x128x128, .f32⟩
  | .hbm, ⟨6, _⟩ => ⟨S2x8x128x128x128, .f32⟩
  | .hbm, ⟨7, _⟩ => ⟨S_, .f32⟩
  | .hbm, ⟨8, _⟩ => ⟨S2x8x128x128x128, .f32⟩
  | .hbm, ⟨9, _⟩ => ⟨S2x8x128x128x128, .f32⟩
  | .hbm, ⟨10, _⟩ => ⟨S_, .f32⟩
  | .hbm, ⟨11, _⟩ => ⟨S2x8, .f32⟩
  | .hbm, ⟨12, _⟩ => ⟨S2x8x1x1x1, .f32⟩
  | .hbm, ⟨13, _⟩ => ⟨S_, .f32⟩
  | .hbm, ⟨14, _⟩ => ⟨S_, .f32⟩
  | .hbm, ⟨15, _⟩ => ⟨S2x8x1x1x1, .f32⟩
  | .hbm, ⟨16, _⟩ => ⟨S2x8x1x1x1, .f32⟩
  | .hbm, ⟨17, _⟩ => ⟨S2x8x128x128x128, .f32⟩
  | .hbm, ⟨18, _⟩ => ⟨S2x8x128x128x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x8x128x128x128, .f32⟩
  | .hbm, ⟨23, _⟩ => ⟨S2x8x128x128x128, .f32⟩
  | .hbm, ⟨24, _⟩ => ⟨S_, .f32⟩
  | .hbm, ⟨25, _⟩ => ⟨S2x8x128x128x128, .f32⟩
  | .hbm, ⟨26, _⟩ => ⟨S2x8x128x128x128, .f32⟩
  | .hbm, ⟨27, _⟩ => ⟨S_, .f32⟩
  | .hbm, ⟨28, _⟩ => ⟨S2x8, .f32⟩
  | .hbm, ⟨29, _⟩ => ⟨S2x8x1x1x1, .f32⟩
  | .hbm, ⟨30, _⟩ => ⟨S_, .f32⟩
  | .hbm, ⟨31, _⟩ => ⟨S_, .f32⟩
  | .hbm, ⟨32, _⟩ => ⟨S2x8x1x1x1, .f32⟩
  | .hbm, ⟨33, _⟩ => ⟨S2x8x1x1x1, .f32⟩
  | .hbm, ⟨34, _⟩ => ⟨S2x8x128x128x128, .f32⟩
  | .hbm, ⟨35, _⟩ => ⟨S2x8x128x128x128, .f32⟩
  | .hbm, ⟨36, _⟩ => ⟨S2x8x128x128x128, .f32⟩
  | .hbm, ⟨37, _⟩ => ⟨S_, .f32⟩
  | .hbm, ⟨38, _⟩ => ⟨S2x8x128x128x128, .f32⟩
  | .hbm, ⟨39, _⟩ => ⟨S2x8x128x128x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x8x128x128x128, .f32⟩
  | .hbm, ⟨44, _⟩ => ⟨S2x8x128x128x128, .f32⟩
  | .hbm, ⟨45, _⟩ => ⟨S_, .f32⟩
  | .hbm, ⟨46, _⟩ => ⟨S2x8x128x128x128, .f32⟩
  | .hbm, ⟨47, _⟩ => ⟨S2x8x128x128x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x8x128x128x128, .f32⟩
  | .hbm, ⟨52, _⟩ => ⟨S2x8x128x128x128, .f32⟩
  | .hbm, ⟨53, _⟩ => ⟨S_, .f32⟩
  | .hbm, ⟨54, _⟩ => ⟨S2x8x128x128x128, .f32⟩
  | .hbm, ⟨55, _⟩ => ⟨S2x8x128x128x128, .f32⟩
  | .hbm, ⟨56, _⟩ => ⟨S2x8x128x128x128, .f32⟩
  | .hbm, ⟨57, _⟩ => ⟨S2x8x128x128x128, .f32⟩
  | .hbm, ⟨58, _⟩ => ⟨S2x8x128x128x128, .f32⟩
  | .hbm, ⟨59, _⟩ => ⟨S2x8x128x128x128, .f32⟩
  | .hbm, ⟨60, _⟩ => ⟨S_, .f32⟩
  | .hbm, ⟨61, _⟩ => ⟨S2x8, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S2x8, .f32⟩
  | .hbm, ⟨66, _⟩ => ⟨S2x8, .f32⟩
  | .hbm, ⟨67, _⟩ => ⟨S_, .f32⟩
  | .hbm, ⟨68, _⟩ => ⟨S2x8, .f32⟩
  | .hbm, ⟨69, _⟩ => ⟨S2x8, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2x8x128x128x128, .f32⟩
  | .hbm, ⟨74, _⟩ => ⟨S2x8x128x128x128, .f32⟩
  | .hbm, ⟨75, _⟩ => ⟨S_, .f32⟩
  | .hbm, ⟨76, _⟩ => ⟨S2x8x128x128x128, .f32⟩
  | .hbm, ⟨77, _⟩ => ⟨S2x8x128x128x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2x8x128x128x128, .f32⟩
  | .hbm, ⟨82, _⟩ => ⟨S2x8x128x128x128, .f32⟩
  | .hbm, ⟨83, _⟩ => ⟨S_, .f32⟩
  | .hbm, ⟨84, _⟩ => ⟨S2x8x128x128x128, .f32⟩
  | .hbm, ⟨85, _⟩ => ⟨S2x8x128x128x128, .f32⟩
  | .hbm, ⟨86, _⟩ => ⟨S2x8x128x128x128, .f32⟩
  | .hbm, ⟨87, _⟩ => ⟨S2x8x128x128x128, .f32⟩
  | .hbm, ⟨88, _⟩ => ⟨S2x8x128x128x128, .f32⟩
  | .hbm, ⟨89, _⟩ => ⟨S2x8x128x128x128, .f32⟩
  | .hbm, ⟨90, _⟩ => ⟨S_, .f32⟩
  | .hbm, ⟨91, _⟩ => ⟨S2x8, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S2x8, .f32⟩
  | .hbm, ⟨96, _⟩ => ⟨S2x8, .f32⟩
  | .hbm, ⟨97, _⟩ => ⟨S_, .f32⟩
  | .hbm, ⟨98, _⟩ => ⟨S2x8, .f32⟩
  | .hbm, ⟨99, _⟩ => ⟨S2x8, .f32⟩
  | .hbm, ⟨100, _⟩ => ⟨S2x8, .f32⟩
  | .hbm, ⟨101, _⟩ => ⟨S_, .f32⟩
  | .hbm, ⟨102, _⟩ => ⟨S2x8, .f32⟩
  | .hbm, ⟨103, _⟩ => ⟨S2x8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S2x8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v6 : Ref sig .tc := ⟨.hbm, 26, rfl⟩
abbrev main_cst_5 : Ref sig .tc := ⟨.hbm, 27, rfl⟩
abbrev main_v7 : Ref sig .tc := ⟨.hbm, 28, rfl⟩
abbrev main_v8 : Ref sig .tc := ⟨.hbm, 29, rfl⟩
abbrev main_cst_6 : Ref sig .tc := ⟨.hbm, 30, rfl⟩
abbrev main_call3_v0 : Ref sig .tc := ⟨.hbm, 31, rfl⟩
abbrev main_call3_v1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_7 : Ref sig .tc := ⟨.hbm, 37, rfl⟩
abbrev main_v13 : Ref sig .tc := ⟨.hbm, 38, rfl⟩
abbrev main_v14 : Ref sig .tc := ⟨.hbm, 39, rfl⟩
abbrev main_cst_8 : Ref sig .tc := ⟨.hbm, 40, rfl⟩
abbrev main_cst_9 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v15 : Ref sig .tc := ⟨.hbm, 47, rfl⟩
abbrev main_cst_10 : Ref sig .tc := ⟨.hbm, 48, rfl⟩
abbrev main_cst_11 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_12 : Ref sig .tc := ⟨.hbm, 60, rfl⟩
abbrev main_v21 : Ref sig .tc := ⟨.hbm, 61, rfl⟩
abbrev main_cst_13 : Ref sig .tc := ⟨.hbm, 62, rfl⟩
abbrev main_cst_14 : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_v22 : Ref sig .tc := ⟨.hbm, 69, rfl⟩
abbrev main_cst_15 : Ref sig .tc := ⟨.hbm, 70, rfl⟩
abbrev main_cst_16 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_call7_v3 : Ref sig .tc := ⟨.hbm, 75, rfl⟩
abbrev main_call7_v4 : Ref sig .tc := ⟨.hbm, 76, rfl⟩
abbrev main_v23 : Ref sig .tc := ⟨.hbm, 77, rfl⟩
abbrev main_cst_17 : Ref sig .tc := ⟨.hbm, 78, rfl⟩
abbrev main_cst_18 : Ref sig .tc := ⟨.hbm, 79, rfl⟩
abbrev main_call8_v0 : Ref sig .tc := ⟨.hbm, 80, rfl⟩
abbrev main_call8_v1 : Ref sig .tc := ⟨.hbm, 81, rfl⟩
abbrev main_call8_v2 : Ref sig .tc := ⟨.hbm, 82, rfl⟩
abbrev main_call8_v3 : Ref sig .tc := ⟨.hbm, 83, rfl⟩
abbrev main_call8_v4 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_19 : Ref sig .tc := ⟨.hbm, 90, rfl⟩
abbrev main_v29 : Ref sig .tc := ⟨.hbm, 91, rfl⟩
abbrev main_cst_20 : Ref sig .tc := ⟨.hbm, 92, rfl⟩
abbrev main_cst_21 : Ref sig .tc := ⟨.hbm, 93, rfl⟩
abbrev main_call9_v0 : Ref sig .tc := ⟨.hbm, 94, rfl⟩
abbrev main_call9_v1 : Ref sig .tc := ⟨.hbm, 95, rfl⟩
abbrev main_call9_v2 : Ref sig .tc := ⟨.hbm, 96, rfl⟩
abbrev main_call9_v3 : Ref sig .tc := ⟨.hbm, 97, rfl⟩
abbrev main_call9_v4 : Ref sig .tc := ⟨.hbm, 98, rfl⟩
abbrev main_v30 : Ref sig .tc := ⟨.hbm, 99, rfl⟩
abbrev main_v31 : Ref sig .tc := ⟨.hbm, 100, rfl⟩
abbrev main_cst_22 : Ref sig .tc := ⟨.hbm, 101, rfl⟩
abbrev main_v32 : Ref sig .tc := ⟨.hbm, 102, rfl⟩
abbrev main_v33 : Ref sig .tc := ⟨.hbm, 103, rfl⟩
abbrev main_cst_23 : Ref sig .tc := ⟨.hbm, 104, rfl⟩
abbrev main_v34 : Ref sig .tc := ⟨.hbm, 105, rfl⟩
abbrev main_cst_24 : Ref sig .tc := ⟨.hbm, 106, rfl⟩
abbrev main_v35 : Ref sig .tc := ⟨.hbm, 107, rfl⟩

abbrev nD : Nat := 1
abbrev τ : Topo := Topo.v7x

variable {F : FTy → Type} [FloatOps F]

class Facts₀ : Prop where
  bcast_S_S2x8x128x128x128 : S_.BroadcastsInDim S2x8x128x128x128 (![] : Fin 0 → Fin S2x8x128x128x128.rank)
  reducesTo_S2x8x128x128x128_S2x8_d2_3_4 : S2x8x128x128x128.ReducesTo [2, 3, 4] S2x8
  h_S_ : 0 < S_.numel
  bcast_S2x8_S2x8x1x1x1_0_1 : S2x8.BroadcastsInDim S2x8x1x1x1 (![0, 1] : Fin 2 → Fin S2x8x1x1x1.rank)
  bcast_S_S2x8x1x1x1 : S_.BroadcastsInDim S2x8x1x1x1 (![] : Fin 0 → Fin S2x8x1x1x1.rank)
  bcast_S2x8x1x1x1_S2x8x128x128x128_0_1_2_3_4 : S2x8x1x1x1.BroadcastsInDim S2x8x128x128x128 (![0, 1, 2, 3, 4] : Fin 5 → Fin S2x8x128x128x128.rank)
  bcast_S_S2x8 : S_.BroadcastsInDim S2x8 (![] : Fin 0 → Fin S2x8.rank)
  reducesTo_S2x8_S_d0_1 : S2x8.ReducesTo [0, 1] S_

variable [Facts₀]

class Facts : Prop extends Facts₀ where

variable [Facts]
-- ==== Proof.Spec.lean ====
/-
  The function both programs compute, over the extended reals, and the two summation facts that join them.

  Each input is clamped to [1e-6, 1e6]; per row (one of the 16 batch-channel pairs, 2097152 positions each) the
  clamped values are summed; each clamped value is divided by its row's sum (the sum itself clamped below at 1e-24),
  which gives the two distributions p and q of a row and their mixture m = (p + q) / 2; the row's two divergences are the
  sums over the positions of a · (log a − log m), a, m clamped to [1e-24, 1]; each divergence is clamped to [0, 1000],
  the two are averaged, and the 16 rows' values are averaged. All constants are the f32 words both programs print.

  A row's sum taken tile by tile (128 tiles of 16384 positions, the running total carried from tile to tile, starting
  from zero) is the sum over the row's positions: addition on the extended reals is commutative and associative, so
  no finiteness is needed.
-/
import Idealize.ShloMosaic.PureOps.Ideal
import Idealize.ShloMosaic.PureOps.Ideal.Laws
import Idealize.ShloMosaic.Lib.ValueIdx
import Mathlib.Algebra.BigOperators.Intervals
import Mathlib.Algebra.BigOperators.Fin

noncomputable section

open scoped BigOperators

namespace Cert.JS

open Idealize.ShloMosaic Idealize.ShloMosaic.ValueIdx

/-! ## The constants, as the words both programs print -/

abbrev cLO : EReal := Ideal.ofBits .f32 0x358637BD#32
abbrev cHI : EReal := Ideal.ofBits .f32 0x49742400#32
abbrev cEPS : EReal := Ideal.ofBits .f32 0x179ABE15#32
abbrev cONE : EReal := Ideal.ofBits .f32 0x3F800000#32
abbrev cHALF : EReal := Ideal.ofBits .f32 0x3F000000#32
abbrev cK : EReal := Ideal.ofBits .f32 0x447A0000#32
abbrev c16 : EReal := Ideal.ofBits .f32 0x41800000#32
abbrev cZ : EReal := Ideal.ofBits .f32 0x00000000#32

/-! ## One element -/

/-- An input clamped to [1e-6, 1e6]. -/
def clampIn (x : EReal) : EReal := min cHI (max cLO x)
/-- A clamped value over its row's sum, the sum clamped below at 1e-24. -/
def share (h s : EReal) : EReal := Ideal.div h (max cEPS s)
/-- A probability clamped to [1e-24, 1]. -/
def clampP (p : EReal) : EReal := min cONE (max cEPS p)
/-- The mixture of two probabilities. -/
def mix (p q : EReal) : EReal := cHALF * (p + q)
/-- One position's term of the divergence of `a` from `m`. -/
def klTerm (a m : EReal) : EReal := clampP a * (Ideal.log (clampP a) - Ideal.log (clampP m))
/-- One position's term of KL(p, m): from the two clamped inputs and their rows' sums. -/
def termP (h g sp sq : EReal) : EReal := klTerm (share h sp) (mix (share h sp) (share g sq))
/-- One position's term of KL(q, m). -/
def termQ (h g sp sq : EReal) : EReal := klTerm (share g sq) (mix (share h sp) (share g sq))
/-- A divergence clamped to [0, 1000]. -/
def clampK (v : EReal) : EReal := min cK (max cZ v)

/-! ## The whole function, over the two inputs laid out as 16 rows of 2097152 positions -/

abbrev Arr2 : Type := (⟨2, ![16, 2097152]⟩ : Shape).Idx → EReal

/-- A row's sum of clamped inputs. -/
def sumIn (X : Arr2) (r : Fin 16) : EReal := ∑ j : Fin 2097152, clampIn (X (ix2 r j))
abbrev Col : Type := (⟨2, ![16, 1]⟩ : Shape).Idx → EReal

/-- A row's KL(p, m), the rows' sums given as two [16, 1] columns. -/
def klPof (X Y : Arr2) (s u : Col) (r : Fin 16) : EReal :=
  ∑ j : Fin 2097152, termP (clampIn (X (ix2 r j))) (clampIn (Y (ix2 r j))) (s (ix2 r 0)) (u (ix2 r 0))
/-- A row's KL(q, m), likewise. -/
def klQof (X Y : Arr2) (s u : Col) (r : Fin 16) : EReal :=
  ∑ j : Fin 2097152, termQ (clampIn (X (ix2 r j))) (clampIn (Y (ix2 r j))) (s (ix2 r 0)) (u (ix2 r 0))
/-- The rows' sums as a column. -/
def sumCol (X : Arr2) : Col := fun y => sumIn X (y 0)
/-- A row's KL(p, m). -/
def klP (X Y : Arr2) (r : Fin 16) : EReal := klPof X Y (sumCol X) (sumCol Y) r
/-- A row's KL(q, m). -/
def klQ (X Y : Arr2) (r : Fin 16) : EReal := klQof X Y (sumCol X) (sumCol Y) r
/-- The mean over the rows of the halved sum of the two clamped divergences. -/
def meanJS (kp kq : Fin 16 → EReal) : EReal :=
  Ideal.div (cZ + ∑ r : Fin 16, cHALF * (clampK (kp r) + clampK (kq r))) c16
/-- The result. -/
def result (X Y : Arr2) : EReal := meanJS (klP X Y) (klQ X Y)

/-! ## Sums taken tile by tile -/

/-- The first tile: the positions below `B`. -/
theorem range_first (B : ℕ) (g : ℕ → EReal) :
    ∑ j ∈ Finset.range (B * (0 + 1)), g j = ∑ l ∈ Finset.range B, g (B * 0 + l) := by
  simp

/-- One more tile: the positions below `B (n + 2)` are those below `B (n + 1)` and the next `B`. -/
theorem range_step (B n : ℕ) (g : ℕ → EReal) :
    ∑ j ∈ Finset.range (B * (n + 1 + 1)), g j
      = ∑ j ∈ Finset.range (B * (n + 1)), g j + ∑ l ∈ Finset.range B, g (B * (n + 1) + l) := by
  rw [show B * (n + 1 + 1) = B * (n + 1) + B by ring, Finset.sum_range_add]

/-- A function of a position below `N`, extended by zero. -/
def ext (N : ℕ) (f : Fin N → EReal) (j : ℕ) : EReal := if h : j < N then f ⟨j, h⟩ else 0

theorem ext_of_lt {N : ℕ} (f : Fin N → EReal) {j : ℕ} (h : j < N) : ext N f j = f ⟨j, h⟩ := dif_pos h

/-- All tiles: the sum of the extension over the positions below `N` is the sum over `Fin N`. -/
theorem sum_range_ext (N : ℕ) (f : Fin N → EReal) : ∑ j ∈ Finset.range N, ext N f j = ∑ j : Fin N, f j := by
  rw [Finset.sum_range]
  exact Finset.sum_congr rfl fun j _ => ext_of_lt f j.isLt

/-- A tile's sum over its `B` lanes, as a sum over the positions `B t + l`. -/
theorem tile_sum (B N t : ℕ) (f : Fin N → EReal) (hN : B * (t + 1) ≤ N) (φ : Fin B → EReal)
    (hφ : ∀ l : Fin B, φ l = f ⟨B * t + l.val, by have := l.isLt; nlinarith⟩) :
    ∑ l : Fin B, φ l = ∑ l ∈ Finset.range B, ext N f (B * t + l) := by
  rw [Finset.sum_range]
  refine Finset.sum_congr rfl fun l _ => ?_
  rw [hφ l, ext_of_lt]

end Cert.JS

end
-- ==== Proof.Region0.lean ====
/-
  The first kernel region: the rows' sums of the two clamped inputs.

  The region walks the 128 tiles of 16384 positions of both inputs (each laid out as 16 rows of 2097152 positions).
  At the first tile it stores zero into the two [16, 1] running sums; at every tile it clamps the tile to
  [1e-6, 1e6], sums each row's 16384 lanes and adds that to the running sum. Here: what one run of the body leaves
  in the running sums (the stores' values read back), the body's arithmetic at one row over the extended reals,
  the running sums after tile n (the row's clamped inputs summed over the positions below 16384 (n + 1), by
  induction on the tile), and the two result arrays, written back once after the last tile: each row's sum over
  all its positions. Stated for any contents the region is entered with.
-/
import proofs.«167535_j42812234006951_1_alg».proof.Proof.Gen.KernelIdeal.Frame
import proofs.«167535_j42812234006951_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-! ## What one run of the body leaves in the two running sums -/

/-- After the first tile the first running sum holds the tile's row sums added to the zero block just stored. -/
theorem out_A_2 (c : Dev nD) (i : grid0.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (hc : cond0_0 i)
    (x0 x1 : Vec F S16x16384 .f32) :
    out0_A_2 c i a1 h1 a2 h2 a3 h3 a4 h4 hc x0 x1 = k0_pay3 x0 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S16x1) hz, View.readCov_unit_zero (S := S16x1) _ hz]
  simp only [View.readAt_eq_ld, h1.read_unread, View.ld_unit_zero (S := S16x16384) hz]

/-- The same for the second running sum. -/
theorem out_A_3 (c : Dev nD) (i : grid0.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (hc : cond0_0 i)
    (x0 x1 : Vec F S16x16384 .f32) :
    out0_A_3 c i a1 h1 a2 h2 a3 h3 a4 h4 hc x0 x1 = k0_pay4 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S16x1) hz, View.readCov_unit_zero (S := S16x1) _ hz]
  simp only [View.readAt_eq_ld, h2.read_unread, View.ld_unit_zero (S := S16x16384) hz]

/-- After a later tile the first running sum holds the tile's row sums added to what it held. -/
theorem out_B_2 (c : Dev nD) (i : grid0.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (hc : ¬cond0_0 i)
    (x0 x1 : Vec F S16x16384 .f32) (xo2 xo3 : Vec F S16x1 .f32) :
    out0_B_2 c i a1 h1 a2 h2 a3 h3 a4 h4 hc x0 x1 xo2 xo3 = k0_pay3 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h3.read_unread, View.ld_unit_zero (S := S16x16384) hz,
    View.ld_unit_zero (S := S16x1) hz]

/-- The same for the second running sum. -/
theorem out_B_3 (c : Dev nD) (i : grid0.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (hc : ¬cond0_0 i)
    (x0 x1 : Vec F S16x16384 .f32) (xo2 xo3 : Vec F S16x1 .f32) :
    out0_B_3 c i a1 h1 a2 h2 a3 h3 a4 h4 hc x0 x1 xo2 xo3 = k0_pay4 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h2.read_unread, h4.read_unread, View.ld_unit_zero (S := S16x16384) hz,
    View.ld_unit_zero (S := S16x1) hz]

/-! ## The body's arithmetic at one row, over the extended reals -/

/-- A lane sum at row `r`: the sum over the tile's 16384 lanes. -/
theorem rowsum_apply (v : FVec Ideal S16x16384 .f32) (hφ : FKind.Formats .f32)
    (hacc : (0x00000000#32 : BitVec 32) = FKind.add.neutral .f32 hφ) (r : Fin 16) :
    multiReduction .add [1] S16 v 0x00000000#32 reduces_S16x16384_S16 hφ hacc (ix1 r) = ∑ l : Fin 16384, v (ix2 r l) :=
  (Ideal.multiReduction_add_single v 0x00000000#32 reduces_S16x16384_S16 hφ hacc (ix1 r)).trans
    (Finset.sum_congr rfl fun l _ => congrArg v (funext fun a => match a with | ⟨0, _⟩ => rfl | ⟨1, _⟩ => rfl))

/-- A vector of 16 row values read as a [16, 1] column. -/
theorem column_apply (v : FVec Ideal S16 .f32) (r : Fin 16) (z : Fin 1) :
    shapeCast S16x1 v shapeCasts_S16_S16x1 (ix2 r z) = v (ix1 r) :=
  shapeCast_apply v shapeCasts_S16_S16x1 (ix2 r z) (ix1 r) (by
    rw [Shape.rowMajor_val_one, Shape.rowMajor_val_two]
    have := z.isLt
    show r.val = r.val * 1 + z.val
    omega)

/-- The first running sum's update at row `r`: what it held plus the tile's sum of clamped inputs. -/
theorem pay3_apply (x : Vec Ideal S16x16384 .f32) (xo : Vec Ideal S16x1 .f32) (r : Fin 16) (z : Fin 1) :
    k0_pay3 (F := Ideal) x xo (ix2 r z) = xo (ix2 r z) + ∑ l : Fin 16384, JS.clampIn (x (ix2 r l)) := by
  unfold k0_pay3
  show (shapeCast S16x1 xo shapeCasts_S16x1_S16x1 (ix2 r z)) + (shapeCast S16x1 _ shapeCasts_S16_S16x1 (ix2 r z)) = _
  rw [shapeCast_self, column_apply]
  refine congrArg (xo (ix2 r z) + ·) ?_
  refine (rowsum_apply _ _ _ r).trans ?_
  rw [shapeCast_self]
  rfl

/-- The second running sum's update at row `r`. -/
theorem pay4_apply (x : Vec Ideal S16x16384 .f32) (xo : Vec Ideal S16x1 .f32) (r : Fin 16) (z : Fin 1) :
    k0_pay4 (F := Ideal) x xo (ix2 r z) = xo (ix2 r z) + ∑ l : Fin 16384, JS.clampIn (x (ix2 r l)) := by
  unfold k0_pay4
  show (shapeCast S16x1 xo shapeCasts_S16x1_S16x1 (ix2 r z)) + (shapeCast S16x1 _ shapeCasts_S16_S16x1 (ix2 r z)) = _
  rw [shapeCast_self, column_apply]
  refine congrArg (xo (ix2 r z) + ·) ?_
  refine (rowsum_apply _ _ _ r).trans ?_
  rw [shapeCast_self]
  rfl

/-! ## The tiles of the two inputs -/

section Region
variable (V : (c : Dev nD) → (b : Ref sig .tc) → Buf (Elt Ideal) ((c : Thread nD τ).loc b))

/-- The two inputs as the region finds them: 16 rows of 2097152 positions. -/
abbrev xarr (c : Dev nD) : Vec Ideal S16x2097152 .f32 := V c main_v0
abbrev yarr (c : Dev nD) : Vec Ideal S16x2097152 .f32 := V c main_v1
/-- Tile `t` of each: 16 rows of 16384 lanes. -/
abbrev xblk (c : Dev nD) (t : Fin cfg0.N) : Vec Ideal S16x16384 .f32 := iblk0 V c 0 t
abbrev yblk (c : Dev nD) (t : Fin cfg0.N) : Vec Ideal S16x16384 .f32 := iblk0 V c 1 t

theorem pos_lt (t : Fin cfg0.N) (l : Fin 16384) : 16384 * t.val + l.val < 2097152 := by
  have h1 : t.val < 128 := lt_of_lt_of_eq t.isLt (show cfg0.N = 128 from N_0)
  have h2 := l.isLt
  omega

/-- Tile `t` of either input starts at row 0, lane block `t`. -/
theorem idx0_0 : ∀ t : Fin cfg0.N, win0_0.index t 0 = 0 ∧ win0_0.index t 1 = t.val :=
  (by decide +kernel : ∀ t : Fin grid0.N, win0_0.index t 0 = 0 ∧ win0_0.index t 1 = t.val)
theorem idx0_1 : ∀ t : Fin cfg0.N, win0_1.index t 0 = 0 ∧ win0_1.index t 1 = t.val :=
  (by decide +kernel : ∀ t : Fin grid0.N, win0_1.index t 0 = 0 ∧ win0_1.index t 1 = t.val)

/-- Lane `l` of row `r` of tile `t` is position `16384 t + l` of row `r`. -/
theorem xblk_apply (c : Dev nD) (t : Fin cfg0.N) (r : Fin 16) (l : Fin 16384) :
    xblk V c t (ix2 r l) = xarr V c (ix2 r ⟨16384 * t.val + l.val, pos_lt t l⟩) := by
  have hi := idx0_0 t
  unfold xblk iblk0
  rw [View.read_apply]
  show V c main_v0 _ = V c main_v0 _
  congr 1
  funext a
  apply Fin.ext
  match a with
  | ⟨0, _⟩ => show win0_0.index t 0 * 16 + 1 * r.val = r.val; rw [hi.1]; omega
  | ⟨1, _⟩ => show win0_0.index t 1 * 16384 + 1 * l.val = 16384 * t.val + l.val; rw [hi.2]; omega

theorem yblk_apply (c : Dev nD) (t : Fin cfg0.N) (r : Fin 16) (l : Fin 16384) :
    yblk V c t (ix2 r l) = yarr V c (ix2 r ⟨16384 * t.val + l.val, pos_lt t l⟩) := by
  have hi := idx0_1 t
  unfold yblk iblk0
  rw [View.read_apply]
  show V c main_v1 _ = V c main_v1 _
  congr 1
  funext a
  apply Fin.ext
  match a with
  | ⟨0, _⟩ => show win0_1.index t 0 * 16 + 1 * r.val = r.val; rw [hi.1]; omega
  | ⟨1, _⟩ => show win0_1.index t 1 * 16384 + 1 * l.val = 16384 * t.val + l.val; rw [hi.2]; omega

/-! ## The running sums after each tile -/

/-- Row `r`'s clamped inputs by position, zero past the row's end. -/
def gX (c : Dev nD) (r : Fin 16) : ℕ → EReal := JS.ext 2097152 fun j => JS.clampIn (xarr V c (ix2 r j))
def gY (c : Dev nD) (r : Fin 16) : ℕ → EReal := JS.ext 2097152 fun j => JS.clampIn (yarr V c (ix2 r j))

theorem tileX (c : Dev nD) (t : Fin cfg0.N) (r : Fin 16) :
    ∑ l : Fin 16384, JS.clampIn (xblk V c t (ix2 r l)) = ∑ l ∈ Finset.range 16384, gX V c r (16384 * t.val + l) :=
  JS.tile_sum 16384 2097152 t.val _ (by have := pos_lt t ⟨16383, by decide⟩; dsimp only at this; omega) _
    (fun l => congrArg JS.clampIn (xblk_apply V c t r l))
theorem tileY (c : Dev nD) (t : Fin cfg0.N) (r : Fin 16) :
    ∑ l : Fin 16384, JS.clampIn (yblk V c t (ix2 r l)) = ∑ l ∈ Finset.range 16384, gY V c r (16384 * t.val + l) :=
  JS.tile_sum 16384 2097152 t.val _ (by have := pos_lt t ⟨16383, by decide⟩; dsimp only at this; omega) _
    (fun l => congrArg JS.clampIn (yblk_apply V c t r l))

theorem zero_apply1 (i : S16x1.Idx) : k0_pay1 (F := Ideal) i = 0 := Ideal.ofBits_zero_f32
theorem zero_apply2 (i : S16x1.Idx) : k0_pay2 (F := Ideal) i = 0 := Ideal.ofBits_zero_f32

/-- After tile `n` each running sum holds, at row `r`, the sum of the row's clamped inputs over the positions of
    tiles 0 … n: by induction on the tile, the first tile added to zero, each later one to what was held. -/
theorem outs_eq (c : Dev nD) : ∀ (n : ℕ) (h : n < cfg0.N) (r : Fin 16) (z : Fin 1),
    (outsAt0 V c n h).1 (ix2 r z) = ∑ j ∈ Finset.range (16384 * (n + 1)), gX V c r j
    ∧ (outsAt0 V c n h).2 (ix2 r z) = ∑ j ∈ Finset.range (16384 * (n + 1)), gY V c r j
  | 0, h, r, z => by
    rw [outsAt0_A V c ⟨0, h⟩ rfl]
    dsimp only
    rw [out_A_2, out_A_3, pay3_apply, pay4_apply, zero_apply1, zero_apply2, JS.range_first, JS.range_first, zero_add, zero_add]
    exact ⟨tileX V c ⟨0, h⟩ r, tileY V c ⟨0, h⟩ r⟩
  | n + 1, h, r, z => by
    have hN : cfg0.N = 128 := N_0
    have hB : ¬(⟨n + 1, h⟩ : Fin cfg0.N).val % 128 = 0 := by dsimp only; omega
    rw [outsAt0_B V c ⟨n + 1, h⟩ hB]
    dsimp only
    rw [out_B_2, out_B_3, pay3_apply, pay4_apply, JS.range_step, JS.range_step]
    have ih := outs_eq c n (Nat.lt_of_succ_lt h) r z
    refine ⟨?_, ?_⟩
    · show (outsAt0 V c n _).1 (ix2 r z) + _ = _
      rw [ih.1]
      exact congrArg (_ + ·) (tileX V c ⟨n + 1, h⟩ r)
    · show (outsAt0 V c n _).2 (ix2 r z) + _ = _
      rw [ih.2]
      exact congrArg (_ + ·) (tileY V c ⟨n + 1, h⟩ r)

end Region

/-! ## The two result arrays: the rows' sums -/

section Final
variable (V : (c : Dev nD) → (b : Ref sig .tc) → Buf (Elt Ideal) ((c : Thread nD τ).loc b))

/-- The last tile. -/
def tLast : Fin cfg0.N := ⟨127, by rw [show cfg0.N = 128 from N_0]; decide⟩

/-- Each row's sum of clamped inputs, as a [16, 1] column. -/
abbrev res2 (c : Dev nD) : Buf (Elt Ideal) ((c : Thread nD τ).loc main_v2_0) := fun y => JS.sumIn (xarr V c) (y 0)
abbrev res3 (c : Dev nD) : Buf (Elt Ideal) ((c : Thread nD τ).loc main_v2_1) := fun y => JS.sumIn (yarr V c) (y 0)

/-- After the last tile the running sums are the rows' sums: the tiles' positions are all the row's positions. -/
theorem last_eq2 (c : Dev nD) : (outsAt0 V c tLast.val tLast.isLt).1 = res2 V c := by
  funext y
  obtain ⟨r, z, rfl⟩ : ∃ (r : Fin 16) (z : Fin 1), y = ix2 r z := ⟨y 0, y 1, eq_ix2 y⟩
  rw [(outs_eq V c tLast.val tLast.isLt r z).1]
  exact JS.sum_range_ext 2097152 _
theorem last_eq3 (c : Dev nD) : (outsAt0 V c tLast.val tLast.isLt).2 = res3 V c := by
  funext y
  obtain ⟨r, z, rfl⟩ : ∃ (r : Fin 16) (z : Fin 1), y = ix2 r z := ⟨y 0, y 1, eq_ix2 y⟩
  rw [(outs_eq V c tLast.val tLast.isLt r z).2]
  exact JS.sum_range_ext 2097152 _

/-- The one write-back of the first running sum, after the last tile, writes the rows' sums: the block is the array. -/
theorem flushed2_eq (c : Dev nD) (t : Fin cfg0.N) (hf : (cfg0.win 2).flush t = true) :
    (dat0 V c).flushed 2 t = ((cfg0.win 2).blk t).view.read (Elt Ideal) (res2 V c) := by
  have hN : cfg0.N = 128 := N_0
  have h127 : t.val = 127 := by have := (flush0_2 t).mp hf; have := t.isLt; omega
  obtain rfl : t = tLast := Fin.ext h127
  show (cfg0.win 2).cut (grid0.coords tLast) ((dat0 V c).after 2 tLast) = _
  rw [after0_2, last_eq2]
  have hz' : (fun a => win0_2.index tLast a * main_v2_0.ty.shape.size a) = fun _ => 0 := funext fun a => by fin_cases a <;> decide
  exact (Memref.read_access_unit_zero (Elt Ideal) main_v2_0 hz' (fun a => by rw [congrFun hz' a]; simp) (res2 V c)).symm
theorem flushed3_eq (c : Dev nD) (t : Fin cfg0.N) (hf : (cfg0.win 3).flush t = true) :
    (dat0 V c).flushed 3 t = ((cfg0.win 3).blk t).view.read (Elt Ideal) (res3 V c) := by
  have hN : cfg0.N = 128 := N_0
  have h127 : t.val = 127 := by have := (flush0_3 t).mp hf; have := t.isLt; omega
  obtain rfl : t = tLast := Fin.ext h127
  show (cfg0.win 3).cut (grid0.coords tLast) ((dat0 V c).after 3 tLast) = _
  rw [after0_3, last_eq3]
  have hz' : (fun a => win0_3.index tLast a * main_v2_1.ty.shape.size a) = fun _ => 0 := funext fun a => by fin_cases a <;> decide
  exact (Memref.read_access_unit_zero (Elt Ideal) main_v2_1 hz' (fun a => by rw [congrFun hz' a]; simp) (res3 V c)).symm

/-- So the first result array ends holding each row's sum of the first input's clamped values. -/
theorem final0_2 (c : Dev nD) : (dat0 V c).arrAt 2 cfg0.N = res2 V c :=
  (dat0 V c).arrAt_eq_of_cover 2 (res2 V c) (flushed2_eq V c) fun i =>
    ⟨tLast, (flush0_2 tLast).mpr rfl, by
      show i ∈ ((View.whole main_v2_0).slice (win0_2.rect tLast)).set
      rw [View.set_slice_whole, Rect.mem_set_unit]
      intro a
      have h0 : (i 0 : Nat) < 16 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 16 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩
/-- And the second each row's sum of the second input's. -/
theorem final0_3 (c : Dev nD) : (dat0 V c).arrAt 3 cfg0.N = res3 V c :=
  (dat0 V c).arrAt_eq_of_cover 3 (res3 V c) (flushed3_eq V c) fun i =>
    ⟨tLast, (flush0_3 tLast).mpr rfl, by
      show i ∈ ((View.whole main_v2_1).slice (win0_3.rect tLast)).set
      rw [View.set_slice_whole, Rect.mem_set_unit]
      intro a
      have h0 : (i 0 : Nat) < 16 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 16 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

end Final

end Cert.KernelIdeal.R0

end
-- ==== Proof.Region1.lean ====
/-
  The second kernel region: the rows' two divergences.

  The region walks the same 128 tiles of both inputs, with the two [16, 1] columns of rows' sums beside them. At the
  first tile it stores zero into the two running divergences; at every tile it clamps the tile, divides each clamped
  value by its row's sum (clamped below at 1e-24), forms the mixture, and adds to each running divergence the row's
  sum over the tile's 16384 lanes of a · (log a − log m), a and m clamped to [1e-24, 1]. Here: what one run of the
  body leaves in the running divergences, the body's arithmetic at one row over the extended reals, the running
  divergences after tile n (by induction on the tile), and the two result arrays, written back once after the last
  tile: each row's sum of terms over all its positions. Stated for any contents the region is entered with.
-/
import proofs.«167535_j42812234006951_1_alg».proof.Proof.Gen.KernelIdeal.Frame
import proofs.«167535_j42812234006951_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable {F : FTy → Type} [FloatOps F]

theorem hz : (![0, 0] : Fin 2 → Nat) = fun _ => 0 := funext fun a => by fin_cases a <;> rfl

/-! ## What one run of the body leaves in the two running divergences -/

/-- After the first tile the first running divergence holds the tile's rows' terms added to the zero block just stored. -/
theorem out_A_4 (c : Dev nD) (i : grid1.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (a5 : Memref sig .tc .vmem S16x1 .f32) (h5 : a5.IsWhole)
    (a6 : Memref sig .tc .vmem S16x1 .f32) (h6 : a6.IsWhole) (hc : cond1_0 i)
    (x0 x1 : Vec F S16x16384 .f32) (x2 x3 : Vec F S16x1 .f32) :
    out1_A_4 c i a1 h1 a2 h2 a3 h3 a4 h4 a5 h5 a6 h6 hc x0 x1 x2 x3
      = k1_pay2 (k1_pay8 x0 x1 x2 x3) (k1_pay9 x0 x2) (k1_pay4 (F := F)) := by
  unfold out1_A_4
  rw [View.read_writes_eq_canon _ _ _ (cover1_A_4 c i a1 h1 a2 h2 a3 h3 a4 h4 a5 h5 a6 h6 hc x0 x1 x2 x3)]
  unfold kernelRun1_A
  dsimp only
  sl_unfold_words
  rw [View.canon_cons_unit_zero (S := S16x1) hz, View.readCov_unit_zero (S := S16x1) _ hz]
  simp only [View.readAt_eq_ld, h1.read_unread, h2.read_unread, h3.read_unread, h4.read_unread, h5.read_unread, h6.read_unread,
    View.ld_unit_zero (S := S16x16384) hz, View.ld_unit_zero (S := S16x1) hz]

/-- The same for the second running divergence. -/
theorem out_A_5 (c : Dev nD) (i : grid1.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (a5 : Memref sig .tc .vmem S16x1 .f32) (h5 : a5.IsWhole)
    (a6 : Memref sig .tc .vmem S16x1 .f32) (h6 : a6.IsWhole) (hc : cond1_0 i)
    (x0 x1 : Vec F S16x16384 .f32) (x2 x3 : Vec F S16x1 .f32) :
    out1_A_5 c i a1 h1 a2 h2 a3 h3 a4 h4 a5 h5 a6 h6 hc x0 x1 x2 x3
      = k1_pay3 (k1_pay8 x0 x1 x2 x3) (k1_pay10 x1 x3) (k1_pay11 (F := F)) (k1_pay5 (F := F)) := by
  unfold out1_A_5
  rw [View.read_writes_eq_canon _ _ _ (cover1_A_5 c i a1 h1 a2 h2 a3 h3 a4 h4 a5 h5 a6 h6 hc x0 x1 x2 x3)]
  unfold kernelRun1_A
  dsimp only
  sl_unfold_words
  rw [View.canon_cons_unit_zero (S := S16x1) hz, View.readCov_unit_zero (S := S16x1) _ hz]
  simp only [View.readAt_eq_ld, h1.read_unread, h2.read_unread, h3.read_unread, h4.read_unread, h5.read_unread, h6.read_unread,
    View.ld_unit_zero (S := S16x16384) hz, View.ld_unit_zero (S := S16x1) hz]

/-- After a later tile the first running divergence holds the tile's rows' terms added to what it held. -/
theorem out_B_4 (c : Dev nD) (i : grid1.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (a5 : Memref sig .tc .vmem S16x1 .f32) (h5 : a5.IsWhole)
    (a6 : Memref sig .tc .vmem S16x1 .f32) (h6 : a6.IsWhole) (hc : ¬cond1_0 i)
    (x0 x1 : Vec F S16x16384 .f32) (x2 x3 xo4 xo5 : Vec F S16x1 .f32) :
    out1_B_4 c i a1 h1 a2 h2 a3 h3 a4 h4 a5 h5 a6 h6 hc x0 x1 x2 x3 xo4 xo5
      = k1_pay2 (k1_pay8 x0 x1 x2 x3) (k1_pay9 x0 x2) xo4 := by
  unfold out1_B_4
  rw [View.read_writes_eq_canon _ _ _ (cover1_B_4 c i a1 h1 a2 h2 a3 h3 a4 h4 a5 h5 a6 h6 hc x0 x1 x2 x3 xo4 xo5)]
  unfold kernelRun1_B
  dsimp only
  sl_unfold_words
  rw [View.canon_unit_zero hz]
  simp only [View.readAt_eq_ld, h1.read_unread, h2.read_unread, h3.read_unread, h4.read_unread, h5.read_unread, h6.read_unread,
    View.ld_unit_zero (S := S16x16384) hz, View.ld_unit_zero (S := S16x1) hz]

/-- The same for the second running divergence. -/
theorem out_B_5 (c : Dev nD) (i : grid1.Coords) (a1 : Memref sig .tc .vmem S16x16384 .f32) (h1 : a1.IsWhole)
    (a2 : Memref sig .tc .vmem S16x16384 .f32) (h2 : a2.IsWhole) (a3 : Memref sig .tc .vmem S16x1 .f32) (h3 : a3.IsWhole)
    (a4 : Memref sig .tc .vmem S16x1 .f32) (h4 : a4.IsWhole) (a5 : Memref sig .tc .vmem S16x1 .f32) (h5 : a5.IsWhole)
    (a6 : Memref sig .tc .vmem S16x1 .f32) (h6 : a6.IsWhole) (hc : ¬cond1_0 i)
    (x0 x1 : Vec F S16x16384 .f32) (x2 x3 xo4 xo5 : Vec F S16x1 .f32) :
    out1_B_5 c i a1 h1 a2 h2 a3 h3 a4 h4 a5 h5 a6 h6 hc x0 x1 x2 x3 xo4 xo5
      = k1_pay3 (k1_pay8 x0 x1 x2 x3) (k1_pay10 x1 x3) (k1_pay11 (F := F)) xo5 := by
  unfold out1_B_5
  rw [View.read_writes_eq_canon _ _ _ (cover1_B_5 c i a1 h1 a2 h2 a3 h3 a4 h4 a5 h5 a6 h6 hc x0 x1 x2 x3 xo4 xo5)]
  unfold kernelRun1_B
  dsimp only
  sl_unfold_words
  rw [View.canon_unit_zero hz]
  simp only [View.readAt_eq_ld, h1.read_unread, h2.read_unread, h3.read_unread, h4.read_unread, h5.read_unread, h6.read_unread,
    View.ld_unit_zero (S := S16x16384) hz, View.ld_unit_zero (S := S16x1) hz]

/-! ## The body's arithmetic at one row, over the extended reals -/

/-- A lane sum at row `r`: the sum over the tile's 16384 lanes. -/
theorem rowsum_apply (v : FVec Ideal S16x16384 .f32) (hφ : FKind.Formats .f32)
    (hacc : (0x00000000#32 : BitVec 32) = FKind.add.neutral .f32 hφ) (r : Fin 16) :
    multiReduction .add [1] S16 v 0x00000000#32 reduces_S16x16384_S16 hφ hacc (ix1 r) = ∑ l : Fin 16384, v (ix2 r l) :=
  (Ideal.multiReduction_add_single v 0x00000000#32 reduces_S16x16384_S16 hφ hacc (ix1 r)).trans
    (Finset.sum_congr rfl fun l _ => congrArg v (funext fun a => match a with | ⟨0, _⟩ => rfl | ⟨1, _⟩ => rfl))

/-- A vector of 16 row values read as a [16, 1] column. -/
theorem column_apply (v : FVec Ideal S16 .f32) (r : Fin 16) (z : Fin 1) :
    shapeCast S16x1 v shapeCasts_S16_S16x1 (ix2 r z) = v (ix1 r) :=
  shapeCast_apply v shapeCasts_S16_S16x1 (ix2 r z) (ix1 r) (by
    rw [Shape.rowMajor_val_one, Shape.rowMajor_val_two]
    have := z.isLt
    show r.val = r.val * 1 + z.val
    omega)

/-- A [16, 1] column spread along the lanes: lane `l` of row `r` reads the column's row `r`. -/
theorem spread_apply (v : FVec Ideal S16x1 .f32) (r : Fin 16) (l : Fin 16384) :
    broadcastTo S16x16384 v broadcasts_S16x1_S16x16384 (ix2 r l) = v (ix2 r 0) :=
  broadcastTo_apply v broadcasts_S16x1_S16x16384 (ix2 r l) (ix2 r 0) (fun a => match a with
    | ⟨0, _⟩ => by show r.val = if (16 : Nat) = 1 then 0 else r.val; rw [if_neg (by decide)]
    | ⟨1, _⟩ => by show (0 : Nat) = if (1 : Nat) = 1 then 0 else l.val; rw [if_pos rfl])

/-- The first divergence's update at row `r`: what it held plus the tile's sum of the terms of KL(p, m), from the
    two tiles and the rows' sums `s`, `u`. -/
theorem pay2_apply (x y : Vec Ideal S16x16384 .f32) (s u xo : Vec Ideal S16x1 .f32) (r : Fin 16) (z : Fin 1) :
    k1_pay2 (F := Ideal) (k1_pay8 x y s u) (k1_pay9 x s) xo (ix2 r z)
      = xo (ix2 r z) + ∑ l : Fin 16384,
          JS.termP (JS.clampIn (x (ix2 r l))) (JS.clampIn (y (ix2 r l))) (s (ix2 r 0)) (u (ix2 r 0)) := by
  unfold k1_pay2
  show (shapeCast S16x1 xo shapeCasts_S16x1_S16x1 (ix2 r z)) + (shapeCast S16x1 _ shapeCasts_S16_S16x1 (ix2 r z)) = _
  rw [shapeCast_self, column_apply]
  refine congrArg (xo (ix2 r z) + ·) ?_
  refine (rowsum_apply _ _ _ r).trans (Finset.sum_congr rfl fun l _ => ?_)
  unfold k1_pay1 k1_pay8 k1_pay9 k1_pay6 k1_pay7 JS.termP JS.klTerm JS.mix JS.share JS.clampP JS.clampIn
  show _ = _
  simp only [shapeCast_self]
  have e1 := spread_apply (maximumf (F := Ideal) (broadcast S16x1 (Scalar.ofBits .f32 0x179ABE15#32)) (s : FVec Ideal S16x1 .f32)) r l
  have e2 := spread_apply (maximumf (F := Ideal) (broadcast S16x1 (Scalar.ofBits .f32 0x179ABE15#32)) (u : FVec Ideal S16x1 .f32)) r l
  generalize broadcastTo S16x16384 (maximumf (F := Ideal) (broadcast S16x1 (Scalar.ofBits .f32 0x179ABE15#32)) (s : FVec Ideal S16x1 .f32)) broadcasts_S16x1_S16x16384 = S' at e1 ⊢
  generalize broadcastTo S16x16384 (maximumf (F := Ideal) (broadcast S16x1 (Scalar.ofBits .f32 0x179ABE15#32)) (u : FVec Ideal S16x1 .f32)) broadcasts_S16x1_S16x16384 = U' at e2 ⊢
  have e1' : S' (ix2 r l) = max JS.cEPS (s (ix2 r 0)) := e1
  have e2' : U' (ix2 r l) = max JS.cEPS (u (ix2 r 0)) := e2
  rw [← e1', ← e2']
  rfl
/-- The second divergence's update at row `r`: what it held plus the tile's sum of the terms of KL(q, m). -/
theorem pay3_apply (x y : Vec Ideal S16x16384 .f32) (s u xo : Vec Ideal S16x1 .f32) (r : Fin 16) (z : Fin 1) :
    k1_pay3 (F := Ideal) (k1_pay8 x y s u) (k1_pay10 y u) (k1_pay11 (F := Ideal)) xo (ix2 r z)
      = xo (ix2 r z) + ∑ l : Fin 16384,
          JS.termQ (JS.clampIn (x (ix2 r l))) (JS.clampIn (y (ix2 r l))) (s (ix2 r 0)) (u (ix2 r 0)) := by
  unfold k1_pay3
  show (shapeCast S16x1 xo shapeCasts_S16x1_S16x1 (ix2 r z)) + (shapeCast S16x1 _ shapeCasts_S16_S16x1 (ix2 r z)) = _
  rw [shapeCast_self, column_apply]
  refine congrArg (xo (ix2 r z) + ·) ?_
  refine (rowsum_apply _ _ _ r).trans (Finset.sum_congr rfl fun l _ => ?_)
  unfold k1_pay1 k1_pay8 k1_pay10 k1_pay11 k1_pay6 k1_pay7 JS.termQ JS.klTerm JS.mix JS.share JS.clampP JS.clampIn
  show _ = _
  simp only [shapeCast_self]
  have e1 := spread_apply (maximumf (F := Ideal) (broadcast S16x1 (Scalar.ofBits .f32 0x179ABE15#32)) (s : FVec Ideal S16x1 .f32)) r l
  have e2 := spread_apply (maximumf (F := Ideal) (broadcast S16x1 (Scalar.ofBits .f32 0x179ABE15#32)) (u : FVec Ideal S16x1 .f32)) r l
  generalize broadcastTo S16x16384 (maximumf (F := Ideal) (broadcast S16x1 (Scalar.ofBits .f32 0x179ABE15#32)) (s : FVec Ideal S16x1 .f32)) broadcasts_S16x1_S16x16384 = S' at e1 ⊢
  generalize broadcastTo S16x16384 (maximumf (F := Ideal) (broadcast S16x1 (Scalar.ofBits .f32 0x179ABE15#32)) (u : FVec Ideal S16x1 .f32)) broadcasts_S16x1_S16x16384 = U' at e2 ⊢
  have e1' : S' (ix2 r l) = max JS.cEPS (s (ix2 r 0)) := e1
  have e2' : U' (ix2 r l) = max JS.cEPS (u (ix2 r 0)) := e2
  rw [← e1', ← e2']
  rfl

/-! ## The tiles of the two inputs and the rows' sums -/

section Region
variable (V : (c : Dev nD) → (b : Ref sig .tc) → Buf (Elt Ideal) ((c : Thread nD τ).loc b))

/-- The two inputs as the region finds them (16 rows of 2097152 positions) and the two columns of rows' sums. -/
abbrev xarr (c : Dev nD) : Vec Ideal S16x2097152 .f32 := V c main_v0
abbrev yarr (c : Dev nD) : Vec Ideal S16x2097152 .f32 := V c main_v1
abbrev sarr (c : Dev nD) : Vec Ideal S16x1 .f32 := V c main_v2_0
abbrev uarr (c : Dev nD) : Vec Ideal S16x1 .f32 := V c main_v2_1
/-- Tile `t` of each input, 16 rows of 16384 lanes; the sums' one block at `t`. -/
abbrev xblk (c : Dev nD) (t : Fin cfg1.N) : Vec Ideal S16x16384 .f32 := iblk1 V c 0 t
abbrev yblk (c : Dev nD) (t : Fin cfg1.N) : Vec Ideal S16x16384 .f32 := iblk1 V c 1 t
abbrev sblk (c : Dev nD) (t : Fin cfg1.N) : Vec Ideal S16x1 .f32 := iblk1 V c 2 t
abbrev ublk (c : Dev nD) (t : Fin cfg1.N) : Vec Ideal S16x1 .f32 := iblk1 V c 3 t

theorem pos_lt (t : Fin cfg1.N) (l : Fin 16384) : 16384 * t.val + l.val < 2097152 := by
  have h1 : t.val < 128 := lt_of_lt_of_eq t.isLt (show cfg1.N = 128 from N_1)
  have h2 := l.isLt
  omega

/-- Tile `t` of either input starts at row 0, lane block `t`; the sums' block is always the whole column. -/
theorem idx1_0 : ∀ t : Fin cfg1.N, win1_0.index t 0 = 0 ∧ win1_0.index t 1 = t.val :=
  (by decide +kernel : ∀ t : Fin grid1.N, win1_0.index t 0 = 0 ∧ win1_0.index t 1 = t.val)
theorem idx1_1 : ∀ t : Fin cfg1.N, win1_1.index t 0 = 0 ∧ win1_1.index t 1 = t.val :=
  (by decide +kernel : ∀ t : Fin grid1.N, win1_1.index t 0 = 0 ∧ win1_1.index t 1 = t.val)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)

/-- Lane `l` of row `r` of tile `t` is position `16384 t + l` of row `r`. -/
theorem xblk_apply (c : Dev nD) (t : Fin cfg1.N) (r : Fin 16) (l : Fin 16384) :
    xblk V c t (ix2 r l) = xarr V c (ix2 r ⟨16384 * t.val + l.val, pos_lt t l⟩) := by
  have hi := idx1_0 t
  unfold xblk iblk1
  rw [View.read_apply]
  show V c main_v0 _ = V c main_v0 _
  congr 1
  funext a
  apply Fin.ext
  match a with
  | ⟨0, _⟩ => show win1_0.index t 0 * 16 + 1 * r.val = r.val; rw [hi.1]; omega
  | ⟨1, _⟩ => show win1_0.index t 1 * 16384 + 1 * l.val = 16384 * t.val + l.val; rw [hi.2]; omega

theorem yblk_apply (c : Dev nD) (t : Fin cfg1.N) (r : Fin 16) (l : Fin 16384) :
    yblk V c t (ix2 r l) = yarr V c (ix2 r ⟨16384 * t.val + l.val, pos_lt t l⟩) := by
  have hi := idx1_1 t
  unfold yblk iblk1
  rw [View.read_apply]
  show V c main_v1 _ = V c main_v1 _
  congr 1
  funext a
  apply Fin.ext
  match a with
  | ⟨0, _⟩ => show win1_1.index t 0 * 16 + 1 * r.val = r.val; rw [hi.1]; omega
  | ⟨1, _⟩ => show win1_1.index t 1 * 16384 + 1 * l.val = 16384 * t.val + l.val; rw [hi.2]; omega

/-- Row `r` of the sums' block at any tile is row `r` of the column. -/
theorem sblk_apply (c : Dev nD) (t : Fin cfg1.N) (r : Fin 16) :
    sblk V c t (ix2 r 0) = sarr V c (ix2 r 0) := by
  have hi := idx1_2 t
  unfold sblk iblk1
  rw [View.read_apply]
  show V c main_v2_0 _ = V c main_v2_0 _
  congr 1
  funext a
  apply Fin.ext
  match a with
  | ⟨0, _⟩ => show win1_2.index t 0 * 16 + 1 * r.val = r.val; rw [hi.1]; omega
  | ⟨1, _⟩ => show win1_2.index t 1 * 1 + 1 * 0 = 0; rw [hi.2]

theorem ublk_apply (c : Dev nD) (t : Fin cfg1.N) (r : Fin 16) :
    ublk V c t (ix2 r 0) = uarr V c (ix2 r 0) := by
  have hi := idx1_3 t
  unfold ublk iblk1
  rw [View.read_apply]
  show V c main_v2_1 _ = V c main_v2_1 _
  congr 1
  funext a
  apply Fin.ext
  match a with
  | ⟨0, _⟩ => show win1_3.index t 0 * 16 + 1 * r.val = r.val; rw [hi.1]; omega
  | ⟨1, _⟩ => show win1_3.index t 1 * 1 + 1 * 0 = 0; rw [hi.2]

/-! ## The running divergences after each tile -/

/-- Row `r`'s terms of KL(p, m) and of KL(q, m) by position, zero past the row's end. -/
def gP (c : Dev nD) (r : Fin 16) : ℕ → EReal := JS.ext 2097152 fun j =>
  JS.termP (JS.clampIn (xarr V c (ix2 r j))) (JS.clampIn (yarr V c (ix2 r j))) (sarr V c (ix2 r 0)) (uarr V c (ix2 r 0))
def gQ (c : Dev nD) (r : Fin 16) : ℕ → EReal := JS.ext 2097152 fun j =>
  JS.termQ (JS.clampIn (xarr V c (ix2 r j))) (JS.clampIn (yarr V c (ix2 r j))) (sarr V c (ix2 r 0)) (uarr V c (ix2 r 0))

theorem tileP (c : Dev nD) (t : Fin cfg1.N) (r : Fin 16) :
    ∑ l : Fin 16384, JS.termP (JS.clampIn (xblk V c t (ix2 r l))) (JS.clampIn (yblk V c t (ix2 r l)))
        (sblk V c t (ix2 r 0)) (ublk V c t (ix2 r 0))
      = ∑ l ∈ Finset.range 16384, gP V c r (16384 * t.val + l) :=
  JS.tile_sum 16384 2097152 t.val _ (by have := pos_lt t ⟨16383, by decide⟩; dsimp only at this; omega) _
    (fun l => by rw [xblk_apply, yblk_apply, sblk_apply, ublk_apply])
theorem tileQ (c : Dev nD) (t : Fin cfg1.N) (r : Fin 16) :
    ∑ l : Fin 16384, JS.termQ (JS.clampIn (xblk V c t (ix2 r l))) (JS.clampIn (yblk V c t (ix2 r l)))
        (sblk V c t (ix2 r 0)) (ublk V c t (ix2 r 0))
      = ∑ l ∈ Finset.range 16384, gQ V c r (16384 * t.val + l) :=
  JS.tile_sum 16384 2097152 t.val _ (by have := pos_lt t ⟨16383, by decide⟩; dsimp only at this; omega) _
    (fun l => by rw [xblk_apply, yblk_apply, sblk_apply, ublk_apply])

theorem zero_apply4 (i : S16x1.Idx) : k1_pay4 (F := Ideal) i = 0 := Ideal.ofBits_zero_f32
theorem zero_apply5 (i : S16x1.Idx) : k1_pay5 (F := Ideal) i = 0 := Ideal.ofBits_zero_f32

/-- After tile `n` each running divergence holds, at row `r`, the sum of the row's terms over the positions of tiles
    0 … n: by induction on the tile, the first tile added to zero, each later one to what was held. -/
theorem outs_eq (c : Dev nD) : ∀ (n : ℕ) (h : n < cfg1.N) (r : Fin 16) (z : Fin 1),
    (outsAt1 V c n h).1 (ix2 r z) = ∑ j ∈ Finset.range (16384 * (n + 1)), gP V c r j
    ∧ (outsAt1 V c n h).2 (ix2 r z) = ∑ j ∈ Finset.range (16384 * (n + 1)), gQ V c r j
  | 0, h, r, z => by
    rw [outsAt1_A V c ⟨0, h⟩ rfl]
    dsimp only
    rw [out_A_4, out_A_5, pay2_apply, pay3_apply, zero_apply4, zero_apply5, JS.range_first, JS.range_first, zero_add, zero_add]
    exact ⟨tileP V c ⟨0, h⟩ r, tileQ V c ⟨0, h⟩ r⟩
  | n + 1, h, r, z => by
    have hN : cfg1.N = 128 := N_1
    have hB : ¬(⟨n + 1, h⟩ : Fin cfg1.N).val % 128 = 0 := by dsimp only; omega
    rw [outsAt1_B V c ⟨n + 1, h⟩ hB]
    dsimp only
    rw [out_B_4, out_B_5, pay2_apply, pay3_apply, JS.range_step, JS.range_step]
    have ih := outs_eq c n (Nat.lt_of_succ_lt h) r z
    refine ⟨?_, ?_⟩
    · show (outsAt1 V c n _).1 (ix2 r z) + _ = _
      rw [ih.1]
      exact congrArg (_ + ·) (tileP V c ⟨n + 1, h⟩ r)
    · show (outsAt1 V c n _).2 (ix2 r z) + _ = _
      rw [ih.2]
      exact congrArg (_ + ·) (tileQ V c ⟨n + 1, h⟩ r)

end Region

/-! ## The two result arrays: the rows' divergences -/

section Final
variable (V : (c : Dev nD) → (b : Ref sig .tc) → Buf (Elt Ideal) ((c : Thread nD τ).loc b))

/-- The last tile. -/
def tLast : Fin cfg1.N := ⟨127, by rw [show cfg1.N = 128 from N_1]; decide⟩

/-- Each row's KL(p, m) and KL(q, m), as [16, 1] columns. -/
abbrev res4 (c : Dev nD) : Buf (Elt Ideal) ((c : Thread nD τ).loc main_v3_0) := fun y => JS.klPof (xarr V c) (yarr V c) (sarr V c) (uarr V c) (y 0)
abbrev res5 (c : Dev nD) : Buf (Elt Ideal) ((c : Thread nD τ).loc main_v3_1) := fun y => JS.klQof (xarr V c) (yarr V c) (sarr V c) (uarr V c) (y 0)

/-- After the last tile the running divergences are the rows' divergences: the tiles' positions are all the row's positions. -/
theorem last_eq4 (c : Dev nD) : (outsAt1 V c tLast.val tLast.isLt).1 = res4 V c := by
  funext y
  obtain ⟨r, z, rfl⟩ : ∃ (r : Fin 16) (z : Fin 1), y = ix2 r z := ⟨y 0, y 1, eq_ix2 y⟩
  rw [(outs_eq V c tLast.val tLast.isLt r z).1]
  exact JS.sum_range_ext 2097152 _
theorem last_eq5 (c : Dev nD) : (outsAt1 V c tLast.val tLast.isLt).2 = res5 V c := by
  funext y
  obtain ⟨r, z, rfl⟩ : ∃ (r : Fin 16) (z : Fin 1), y = ix2 r z := ⟨y 0, y 1, eq_ix2 y⟩
  rw [(outs_eq V c tLast.val tLast.isLt r z).2]
  exact JS.sum_range_ext 2097152 _

/-- The one write-back of the first running divergence, after the last tile, writes the rows' KL(p, m): the block is the array. -/
theorem flushed4_eq (c : Dev nD) (t : Fin cfg1.N) (hf : (cfg1.win 4).flush t = true) :
    (dat1 V c).flushed 4 t = ((cfg1.win 4).blk t).view.read (Elt Ideal) (res4 V c) := by
  have hN : cfg1.N = 128 := N_1
  have h127 : t.val = 127 := by have := (flush1_4 t).mp hf; have := t.isLt; omega
  obtain rfl : t = tLast := Fin.ext h127
  show (cfg1.win 4).cut (grid1.coords tLast) ((dat1 V c).after 4 tLast) = _
  rw [after1_4, last_eq4]
  have hz' : (fun a => win1_4.index tLast a * main_v3_0.ty.shape.size a) = fun _ => 0 := funext fun a => by fin_cases a <;> decide
  exact (Memref.read_access_unit_zero (Elt Ideal) main_v3_0 hz' (fun a => by rw [congrFun hz' a]; simp) (res4 V c)).symm
theorem flushed5_eq (c : Dev nD) (t : Fin cfg1.N) (hf : (cfg1.win 5).flush t = true) :
    (dat1 V c).flushed 5 t = ((cfg1.win 5).blk t).view.read (Elt Ideal) (res5 V c) := by
  have hN : cfg1.N = 128 := N_1
  have h127 : t.val = 127 := by have := (flush1_5 t).mp hf; have := t.isLt; omega
  obtain rfl : t = tLast := Fin.ext h127
  show (cfg1.win 5).cut (grid1.coords tLast) ((dat1 V c).after 5 tLast) = _
  rw [after1_5, last_eq5]
  have hz' : (fun a => win1_5.index tLast a * main_v3_1.ty.shape.size a) = fun _ => 0 := funext fun a => by fin_cases a <;> decide
  exact (Memref.read_access_unit_zero (Elt Ideal) main_v3_1 hz' (fun a => by rw [congrFun hz' a]; simp) (res5 V c)).symm

/-- So the first result array ends holding each row's KL(p, m). -/
theorem final1_4 (c : Dev nD) : (dat1 V c).arrAt 4 cfg1.N = res4 V c :=
  (dat1 V c).arrAt_eq_of_cover 4 (res4 V c) (flushed4_eq V c) fun i =>
    ⟨tLast, (flush1_4 tLast).mpr rfl, by
      show i ∈ ((View.whole main_v3_0).slice (win1_4.rect tLast)).set
      rw [View.set_slice_whole, Rect.mem_set_unit]
      intro a
      have h0 : (i 0 : Nat) < 16 := (i 0).isLt
      have h1 : (i 1 : Nat) < 1 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 16 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1 from by decide +kernel]; omega⟩
/-- And the second each row's KL(q, m). -/
theorem final1_5 (c : Dev nD) : (dat1 V c).arrAt 5 cfg1.N = res5 V c :=
  (dat1 V c).arrAt_eq_of_cover 5 (res5 V c) (flushed5_eq V c) fun i =>
    ⟨tLast, (flush1_5 tLast).mpr rfl, by
      show i ∈ ((View.whole main_v3_1).slice (win1_5.rect tLast)).set
      rw [View.set_slice_whole, Rect.mem_set_unit]
      intro a
      have h0 : (i 0 : Nat) < 16 := (i 0).isLt
      have h1 : (i 1 : Nat) < 1 := (i 1).isLt
      match a with
      | ⟨0, _⟩ => show win1_5.index tLast 0 * win1_5.size 0 ≤ (i 0 : Nat) ∧ (i 0 : Nat) < win1_5.index tLast 0 * win1_5.size 0 + win1_5.xsize (grid1.coords tLast) 0
                  rw [show win1_5.index tLast 0 * win1_5.size 0 = 0 from by decide +kernel, show win1_5.xsize (grid1.coords tLast) 0 = 16 from by decide +kernel]; omega
      | ⟨1, _⟩ => show win1_5.index tLast 1 * win1_5.size 1 ≤ (i 1 : Nat) ∧ (i 1 : Nat) < win1_5.index tLast 1 * win1_5.size 1 + win1_5.xsize (grid1.coords tLast) 1
                  rw [show win1_5.index tLast 1 * win1_5.size 1 = 0 from by decide +kernel, show win1_5.xsize (grid1.coords tLast) 1 = 1 from by decide +kernel]; omega⟩

end Final

end Cert.KernelIdeal.R1

end
-- ==== Proof.KValue.lean ====
/-
  The kernel program's result as a function of its two arguments.

  The two arguments are reshaped to 16 rows of 2097152 positions; the first region leaves the rows' sums of the
  clamped inputs; the second region, reading the same reshaped inputs and those sums, leaves the rows' two
  divergences; the host operations after it clamp each divergence to [0, 1000], halve their sum, sum the 16 rows from
  zero and divide by 16. Each array is read where it was written: a region's inputs at what the stretch or region
  before left, its results at what its own write-backs leave.
-/
import proofs.«167535_j42812234006951_1_alg».proof.Proof.Gen.KernelIdeal.Frame
import proofs.«167535_j42812234006951_1_alg».proof.Proof.Spec
import proofs.«167535_j42812234006951_1_alg».proof.Proof.Region0
import proofs.«167535_j42812234006951_1_alg».proof.Proof.Region1
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.StableHlo

namespace Cert.KernelIdeal.KV

open Cert.KernelIdeal Cert.KernelIdeal.Gen

variable (m : (ℓ : Loc nD τ sig) → Buf (Elt Ideal) ℓ) (ρ : Dev nD → PrngReg)

/-! ## The reshaped arguments -/

/-- The two arguments as 16 rows of 2097152 positions. -/
abbrev X (c : Dev nD) : Vec Ideal S16x2097152 .f32 :=
  shapeCast S16x2097152 (m ((c : Thread nD τ).loc main_arg0)) shapeCasts_S2x8x128x128x128_S16x2097152
abbrev Y (c : Dev nD) : Vec Ideal S16x2097152 .f32 :=
  shapeCast S16x2097152 (m ((c : Thread nD τ).loc main_arg1)) shapeCasts_S2x8x128x128x128_S16x2097152

/-- The first region is entered with the reshaped arguments. -/
theorem V1_v0 (c : Dev nD) : V1 m ρ c main_v0 = X m c := by
  show StableHlo.after hostOps0 (W0 m ρ c) (Proc.devRef .tc main_v0) = _
  after_results
  rfl
theorem V1_v1 (c : Dev nD) : V1 m ρ c main_v1 = Y m c := by
  show StableHlo.after hostOps0 (W0 m ρ c) (Proc.devRef .tc main_v1) = _
  after_results
  rfl

/-! ## After the first region -/

/-- The second region is entered with the same reshaped arguments (the first region only reads them) -/
theorem V2_v0 (c : Dev nD) : V2 m ρ c main_v0 = X m c :=
  ((W2_arr m ρ c 0).trans ((dat0 (V1 m ρ) c).arrAt_in 0 rfl _)).trans (V1_v0 m ρ c)
theorem V2_v1 (c : Dev nD) : V2 m ρ c main_v1 = Y m c :=
  ((W2_arr m ρ c 1).trans ((dat0 (V1 m ρ) c).arrAt_in 1 rfl _)).trans (V1_v1 m ρ c)
/-- and with the rows' sums of their clamped values. -/
theorem V2_s (c : Dev nD) : V2 m ρ c main_v2_0 = JS.sumCol (X m c) :=
  ((W2_arr m ρ c 2).trans (R0.final0_2 (V1 m ρ) c)).trans
    (congrArg (fun A : Vec Ideal S16x2097152 .f32 => (fun y => JS.sumIn A (y 0) : Vec Ideal S16x1 .f32)) (V1_v0 m ρ c))
theorem V2_u (c : Dev nD) : V2 m ρ c main_v2_1 = JS.sumCol (Y m c) :=
  ((W2_arr m ρ c 3).trans (R0.final0_3 (V1 m ρ) c)).trans
    (congrArg (fun A : Vec Ideal S16x2097152 .f32 => (fun y => JS.sumIn A (y 0) : Vec Ideal S16x1 .f32)) (V1_v1 m ρ c))

/-! ## After the second region -/

/-- The second region leaves the rows' two divergences. -/
theorem res4_eq (c : Dev nD) : R1.res4 (V2 m ρ) c = fun y => JS.klP (X m c) (Y m c) (y 0) := by
  funext y
  show JS.klPof (V2 m ρ c main_v0) (V2 m ρ c main_v1) (V2 m ρ c main_v2_0) (V2 m ρ c main_v2_1) (y 0) = _
  rw [V2_v0, V2_v1, V2_s, V2_u]
  rfl
theorem res5_eq (c : Dev nD) : R1.res5 (V2 m ρ) c = fun y => JS.klQ (X m c) (Y m c) (y 0) := by
  funext y
  show JS.klQof (V2 m ρ c main_v0) (V2 m ρ c main_v1) (V2 m ρ c main_v2_0) (V2 m ρ c main_v2_1) (y 0) = _
  rw [V2_v0, V2_v1, V2_s, V2_u]
  rfl
theorem W3_p (c : Dev nD) : W3 m ρ c (Proc.devRef .tc main_v3_0) = fun y => JS.klP (X m c) (Y m c) (y 0) :=
  ((W3_arr m ρ c 4).trans (R1.final1_4 (V2 m ρ) c)).trans (res4_eq m ρ c)
theorem W3_q (c : Dev nD) : W3 m ρ c (Proc.devRef .tc main_v3_1) = fun y => JS.klQ (X m c) (Y m c) (y 0) :=
  ((W3_arr m ρ c 5).trans (R1.final1_5 (V2 m ρ) c)).trans (res5_eq m ρ c)

/-! ## The host operations after the regions -/

/-- A column clamped to [0, 1000]. -/
def clipK (v : FVec Ideal S16x1 .f32) : FVec Ideal S16x1 .f32 :=
  minimumf (broadcastInDim S16x1 ![] bcast_S_S16x1 (id (constant (F := Ideal) S_ .f32 0x447A0000#32)))
    (maximumf (broadcastInDim S16x1 ![] bcast_S_S16x1 (id (constant (F := Ideal) S_ .f32 0x00000000#32))) v)

/-- The operations after the regions, of the two columns of divergences. -/
def tail (a b : FVec Ideal S16x1 .f32) : FVec Ideal S_ .f32 :=
  Host.divf (F := Ideal)
    (Host.reduceAdd (F := Ideal)
      (mulf (broadcastInDim S16x1 ![] bcast_S_S16x1 (constant (F := Ideal) S_ .f32 0x3F000000#32)) (addf (clipK a) (clipK b)))
      (constant (F := Ideal) S_ .f32 0x00000000#32) reducesTo_S16x1_S_d0_1 h_S_)
    (constant (F := Ideal) S_ .f32 0x41800000#32)

/-- The result buffer at the end of the run is those operations of what the second region left. -/
theorem W8_v10 (c : Dev nD) :
    W8 m ρ c (Proc.devRef .tc main_v10)
      = tail (W3 m ρ c (Proc.devRef .tc main_v3_0)) (W3 m ρ c (Proc.devRef .tc main_v3_1)) := by
  show StableHlo.after hostOps2_4 (StableHlo.after hostOps2_3 (StableHlo.after hostOps2_2 (StableHlo.after hostOps2_1
    (StableHlo.after hostOps2 (W3 m ρ c))))) (Proc.devRef .tc main_v10) = _
  after_results
  rfl

/-- Those operations at the result's one index: the mean over the rows of the halved sum of the clamped divergences. -/
theorem tail_apply (a b : FVec Ideal S16x1 .f32) (i : S_.Idx) :
    tail a b i = JS.meanJS (fun r => a (ix2 r 0)) (fun r => b (ix2 r 0)) := by
  unfold tail JS.meanJS
  show Ideal.div (Ideal.hostReduceAdd reducesTo_S16x1_S_d0_1 _ _ _) _ = _
  rw [Ideal.hostReduceAdd_total reducesTo_S16x1_S_d0_1 (fun b => b.elim0), sum_idx2]
  refine congrArg (fun v => Ideal.div (_ + v) _) (Finset.sum_congr rfl fun r _ => ?_)
  rw [Fin.sum_univ_one]
  rfl

/-- The kernel program's result. -/
theorem result_eq (c : Dev nD) :
    W8 m ρ c (Proc.devRef .tc main_v10) = fun _ => JS.result (X m c) (Y m c) := by
  rw [W8_v10, W3_p, W3_q]
  funext i
  rw [tail_apply]
  rfl

end Cert.KernelIdeal.KV

end
-- ==== Proof.Index.lean ====
/-
  The two ways the inputs are laid out, and the sums that pass from one to the other.

  An input of shape [2, 8, 128, 128, 128] reshaped to 16 rows of 2097152 positions keeps its row-major order: row
  8 b + c holds the batch-channel pair (b, c), and position p of that row is the element (b, c, p / 16384,
  p / 128 mod 128, p mod 128). So a sum over the elements that a reduction along the last three axes sends to (b, c)
  is the sum over the positions of row 8 b + c, and a sum over the 16 rows is the sum over the 2 × 8 pairs.
-/
import Idealize.ShloMosaic.PureOps.Ideal
import Idealize.ShloMosaic.PureOps.Reduce
import Idealize.ShloMosaic.Lib.ValueIdx
import Idealize.ShloMosaic.Lib.Pipeline.Value
import Mathlib.Algebra.BigOperators.Fin

noncomputable section

open scoped BigOperators

namespace Cert.JS

open Idealize.ShloMosaic Idealize.ShloMosaic.ValueIdx

abbrev S5 : Shape := ⟨5, ![2, 8, 128, 128, 128]⟩
abbrev S2 : Shape := ⟨2, ![2, 8]⟩
abbrev SR : Shape := ⟨2, ![16, 2097152]⟩

/-- The row of the pair (b, c). -/
def row16 (b : Fin 2) (c : Fin 8) : Fin 16 := ⟨8 * b.val + c.val, by have := b.isLt; have := c.isLt; omega⟩

/-- The 16 rows are the 2 × 8 pairs. -/
theorem sum_rows (g : Fin 16 → EReal) : ∑ r : Fin 16, g r = ∑ b : Fin 2, ∑ c : Fin 8, g (row16 b c) := by
  rw [← Equiv.sum_comp (finProdFinEquiv : Fin 2 × Fin 8 ≃ Fin 16) g, Fintype.sum_prod_type]
  refine Finset.sum_congr rfl fun b _ => Finset.sum_congr rfl fun c _ => congrArg g (Fin.ext ?_)
  show c.val + 8 * b.val = 8 * b.val + c.val
  omega

/-- Position `p` of the pair (b, c), as an element's index. -/
def pos5 (b : Fin 2) (c : Fin 8) (p : Fin 2097152) : S5.Idx :=
  ix5 b c ⟨p.val / 16384, by have := p.isLt; omega⟩ ⟨p.val / 128 % 128, Nat.mod_lt _ (by decide)⟩
    ⟨p.val % 128, Nat.mod_lt _ (by decide)⟩

/-- An element's position within its pair's row. -/
def flat5 (i : S5.Idx) : Fin 2097152 :=
  ⟨((i 2).val * 128 + (i 3).val) * 128 + (i 4).val, by
    have h2 : (i 2).val < 128 := (i 2).isLt
    have h3 : (i 3).val < 128 := (i 3).isLt
    have h4 : (i 4).val < 128 := (i 4).isLt
    omega⟩

/-- The reshaped input at row 8 b + c, position p, is the input at (b, c, p / 16384, p / 128 mod 128, p mod 128). -/
theorem reshape_pos {α : Type} (A : S5.Idx → α) (hS : S5.ShapeCasts SR) (b : Fin 2) (c : Fin 8) (p : Fin 2097152) :
    shapeCast SR A hS (ix2 (row16 b c) p) = A (pos5 b c p) := by
  refine shapeCast_apply A hS (ix2 (row16 b c) p) (pos5 b c p) ?_
  rw [Shape.rowMajor_val_five, Shape.rowMajor_val_two]
  show (((b.val * 8 + c.val) * 128 + p.val / 16384) * 128 + p.val / 128 % 128) * 128 + p.val % 128 = (8 * b.val + c.val) * 2097152 + p.val
  omega

/-- A sum over the elements the reduction along the last three axes sends to (b, c) is the sum over the positions. -/
theorem sum_fibre (hR : S5.ReducesTo [2, 3, 4] S2) (f : S5.Idx → EReal) (b : Fin 2) (c : Fin 8) :
    ∑ i ∈ Finset.univ.filter (fun i => hR.drop i = ix2 b c), f i = ∑ p : Fin 2097152, f (pos5 b c p) := by
  have hd0 : ∀ i : S5.Idx, (hR.drop i 0).val = (i 0).val := fun i => hR.drop_apply_val_of_eq i 0 0
  have hd1 : ∀ i : S5.Idx, (hR.drop i 1).val = (i 1).val := fun i => hR.drop_apply_val_of_eq i 1 1
  have left : ∀ i ∈ Finset.univ.filter (fun i => hR.drop i = ix2 b c), pos5 b c (flat5 i) = i := by
    intro i hi
    have he := (Finset.mem_filter.mp hi).2
    have e0 : (i 0).val = b.val := (hd0 i).symm.trans (congrArg (fun j : S2.Idx => (j 0).val) he)
    have e1 : (i 1).val = c.val := (hd1 i).symm.trans (congrArg (fun j : S2.Idx => (j 1).val) he)
    have h2 : (i 2).val < 128 := (i 2).isLt
    have h3 : (i 3).val < 128 := (i 3).isLt
    have h4 : (i 4).val < 128 := (i 4).isLt
    funext a
    apply Fin.ext
    match a with
    | ⟨0, _⟩ => exact e0.symm
    | ⟨1, _⟩ => exact e1.symm
    | ⟨2, _⟩ => show (((i 2).val * 128 + (i 3).val) * 128 + (i 4).val) / 16384 = (i 2).val; omega
    | ⟨3, _⟩ => show (((i 2).val * 128 + (i 3).val) * 128 + (i 4).val) / 128 % 128 = (i 3).val; omega
    | ⟨4, _⟩ => show (((i 2).val * 128 + (i 3).val) * 128 + (i 4).val) % 128 = (i 4).val; omega
  refine Finset.sum_nbij' flat5 (pos5 b c) (fun _ _ => Finset.mem_univ _) (fun p _ => ?_) left (fun p _ => ?_)
    (fun i hi => congrArg f (left i hi).symm)
  · refine Finset.mem_filter.mpr ⟨Finset.mem_univ _, funext fun a => Fin.ext ?_⟩
    match a with
    | ⟨0, _⟩ => exact hd0 _
    | ⟨1, _⟩ => exact hd1 _
  · apply Fin.ext
    show ((p.val / 16384) * 128 + p.val / 128 % 128) * 128 + p.val % 128 = p.val
    omega

end Cert.JS

end
-- ==== Proof.RefValue.lean ====
/-
  The reference program's result as the same function of its two arguments.

  The reference clamps each input, sums it over the last three axes per batch-channel pair, divides by that sum
  (clamped below), forms the mixture and the two divergences' terms element by element, sums each over the last three
  axes, clamps, halves the sum of the two and takes the mean over the 2 × 8 pairs. Read one operation at a time at
  an index, each element is the term of the specification at that element; a sum over the last three axes at the
  pair (b, c) is the sum over the positions of row 8 b + c of the reshaped input, and the sum over the pairs is the
  sum over the 16 rows. The sums' initial zero is the extended real 0.
-/
import proofs.«167535_j42812234006951_1_alg».proof.Proof.Gen.ReferenceIdeal.Read
import proofs.«167535_j42812234006951_1_alg».proof.Proof.Spec
import proofs.«167535_j42812234006951_1_alg».proof.Proof.Index
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RV

open Cert.ReferenceIdeal Cert.ReferenceIdeal.Gen Cert.ReferenceIdeal.Read

variable (A B : FVec Ideal S2x8x128x128x128 .f32)

/-- The elements the sums along the last three axes send to the pair `jj`. -/
abbrev fib (jj : S2x8.Idx) : Finset S2x8x128x128x128.Idx :=
  Finset.univ.filter fun i => reducesTo_S2x8x128x128x128_S2x8_d2_3_4.drop i = jj

/-! ## The clamped inputs and their sums -/

theorem v0_apply (i : S2x8x128x128x128.Idx) : val_main_v0 (F := Ideal) A i = JS.clampIn (A i) := by
  simp only [val_main_v0_apply, val_main_call0_v4_apply, val_main_call0_v3_apply, val_main_cst_0_apply,
    val_main_call0_v2_apply, val_main_call0_v1_apply, val_main_call0_v0_apply, val_main_cst_apply]
  rfl
theorem v6_apply (i : S2x8x128x128x128.Idx) : val_main_v6 (F := Ideal) B i = JS.clampIn (B i) := by
  simp only [val_main_v6_apply, val_main_call2_v4_apply, val_main_call2_v3_apply, val_main_cst_4_apply,
    val_main_call2_v2_apply, val_main_call2_v1_apply, val_main_call2_v0_apply, val_main_cst_3_apply]
  rfl

theorem v1_apply (jj : S2x8.Idx) : val_main_v1 (F := Ideal) A jj = ∑ i ∈ fib jj, JS.clampIn (A i) := by
  unfold val_main_v1
  simp only [Host.reduceAdd, Ideal.hostReduceAdd_def]
  unfold Ideal.hostReduceAdd
  rw [val_main_cst_1_apply, Ideal.ofBits_def, Ideal.ofBits_zero_f32, zero_add]
  exact Finset.sum_congr rfl fun i _ => v0_apply A i
theorem v7_apply (jj : S2x8.Idx) : val_main_v7 (F := Ideal) B jj = ∑ i ∈ fib jj, JS.clampIn (B i) := by
  unfold val_main_v7
  simp only [Host.reduceAdd, Ideal.hostReduceAdd_def]
  unfold Ideal.hostReduceAdd
  rw [val_main_cst_5_apply, Ideal.ofBits_def, Ideal.ofBits_zero_f32, zero_add]
  exact Finset.sum_congr rfl fun i _ => v6_apply B i

/-- The pair an element belongs to. -/
abbrev pairOf (i : S2x8x128x128x128.Idx) : S2x8.Idx := idx_main_v2 (idx_main_v4 i)

theorem pairOf' (i : S2x8x128x128x128.Idx) : idx_main_v8 (idx_main_v10 i) = pairOf i :=
  funext fun a => match a with | ⟨0, _⟩ => rfl | ⟨1, _⟩ => rfl

/-! ## The two distributions, element by element -/

theorem v5_apply (i : S2x8x128x128x128.Idx) :
    val_main_v5 (F := Ideal) A i = JS.share (JS.clampIn (A i)) (val_main_v1 (F := Ideal) A (pairOf i)) := by
  rw [val_main_v5_apply, val_main_v4_apply, val_main_v3_apply, val_main_v2_apply, v0_apply]
  simp only [val_main_call1_v1_apply, val_main_call1_v0_apply, val_main_cst_2_apply]
  rfl
theorem v11_apply (i : S2x8x128x128x128.Idx) :
    val_main_v11 (F := Ideal) B i = JS.share (JS.clampIn (B i)) (val_main_v7 (F := Ideal) B (pairOf i)) := by
  rw [val_main_v11_apply, val_main_v10_apply, val_main_v9_apply, val_main_v8_apply, v6_apply, pairOf']
  simp only [val_main_call3_v1_apply, val_main_call3_v0_apply, val_main_cst_6_apply]
  rfl

/-! ## The divergences' terms, element by element -/

theorem v20_apply (i : S2x8x128x128x128.Idx) :
    val_main_v20 (F := Ideal) A B i = JS.termP (JS.clampIn (A i)) (JS.clampIn (B i))
      (val_main_v1 (F := Ideal) A (pairOf i)) (val_main_v7 (F := Ideal) B (pairOf i)) := by
  simp only [val_main_v20_apply, val_main_v19_apply, val_main_v17_apply, val_main_v18_apply, val_main_v15_apply,
    val_main_v16_apply, val_main_call4_v4_apply, val_main_call4_v3_apply, val_main_cst_9_apply, val_main_call4_v2_apply,
    val_main_call4_v1_apply, val_main_call4_v0_apply, val_main_cst_8_apply, val_main_call5_v4_apply,
    val_main_call5_v3_apply, val_main_cst_11_apply, val_main_call5_v2_apply, val_main_call5_v1_apply,
    val_main_call5_v0_apply, val_main_cst_10_apply, val_main_v14_apply, val_main_v13_apply, val_main_cst_7_apply,
    val_main_v12_apply, v5_apply, v11_apply]
  rfl
theorem v28_apply (i : S2x8x128x128x128.Idx) :
    val_main_v28 (F := Ideal) A B i = JS.termQ (JS.clampIn (A i)) (JS.clampIn (B i))
      (val_main_v1 (F := Ideal) A (pairOf i)) (val_main_v7 (F := Ideal) B (pairOf i)) := by
  simp only [val_main_v28_apply, val_main_v27_apply, val_main_v25_apply, val_main_v26_apply, val_main_v23_apply,
    val_main_v24_apply, val_main_call7_v4_apply, val_main_call7_v3_apply, val_main_cst_16_apply, val_main_call7_v2_apply,
    val_main_call7_v1_apply, val_main_call7_v0_apply, val_main_cst_15_apply, val_main_call8_v4_apply,
    val_main_call8_v3_apply, val_main_cst_18_apply, val_main_call8_v2_apply, val_main_call8_v1_apply,
    val_main_call8_v0_apply, val_main_cst_17_apply, val_main_v14_apply, val_main_v13_apply, val_main_cst_7_apply,
    val_main_v12_apply, v5_apply, v11_apply]
  rfl

theorem v21_apply (jj : S2x8.Idx) : val_main_v21 (F := Ideal) A B jj
    = ∑ i ∈ fib jj, JS.termP (JS.clampIn (A i)) (JS.clampIn (B i))
        (val_main_v1 (F := Ideal) A (pairOf i)) (val_main_v7 (F := Ideal) B (pairOf i)) := by
  unfold val_main_v21
  simp only [Host.reduceAdd, Ideal.hostReduceAdd_def]
  unfold Ideal.hostReduceAdd
  rw [val_main_cst_12_apply, Ideal.ofBits_def, Ideal.ofBits_zero_f32, zero_add]
  exact Finset.sum_congr rfl fun i _ => v20_apply A B i
theorem v29_apply (jj : S2x8.Idx) : val_main_v29 (F := Ideal) A B jj
    = ∑ i ∈ fib jj, JS.termQ (JS.clampIn (A i)) (JS.clampIn (B i))
        (val_main_v1 (F := Ideal) A (pairOf i)) (val_main_v7 (F := Ideal) B (pairOf i)) := by
  unfold val_main_v29
  simp only [Host.reduceAdd, Ideal.hostReduceAdd_def]
  unfold Ideal.hostReduceAdd
  rw [val_main_cst_19_apply, Ideal.ofBits_def, Ideal.ofBits_zero_f32, zero_add]
  exact Finset.sum_congr rfl fun i _ => v28_apply A B i

/-! ## One pair's row -/

section Row
variable (hS : S2x8x128x128x128.ShapeCasts JS.SR) (b : Fin 2) (c : Fin 8)

theorem pair_pos (p : Fin 2097152) : pairOf (JS.pos5 b c p) = ix2 b c :=
  funext fun a => match a with | ⟨0, _⟩ => rfl | ⟨1, _⟩ => rfl

/-- The pair's sum of clamped inputs is its row's sum. -/
theorem v1_row : val_main_v1 (F := Ideal) A (ix2 b c) = JS.sumIn (shapeCast JS.SR A hS) (JS.row16 b c) := by
  rw [v1_apply, JS.sum_fibre reducesTo_S2x8x128x128x128_S2x8_d2_3_4 _ b c]
  exact Finset.sum_congr rfl fun p _ => congrArg JS.clampIn (JS.reshape_pos A hS b c p).symm
theorem v7_row : val_main_v7 (F := Ideal) B (ix2 b c) = JS.sumIn (shapeCast JS.SR B hS) (JS.row16 b c) := by
  rw [v7_apply, JS.sum_fibre reducesTo_S2x8x128x128x128_S2x8_d2_3_4 _ b c]
  exact Finset.sum_congr rfl fun p _ => congrArg JS.clampIn (JS.reshape_pos B hS b c p).symm

/-- The pair's two divergences are its row's. -/
theorem v21_row : val_main_v21 (F := Ideal) A B (ix2 b c)
    = JS.klP (shapeCast JS.SR A hS) (shapeCast JS.SR B hS) (JS.row16 b c) := by
  rw [v21_apply, JS.sum_fibre reducesTo_S2x8x128x128x128_S2x8_d2_3_4 _ b c]
  unfold JS.klP JS.klPof
  refine Finset.sum_congr rfl fun p _ => ?_
  rw [pair_pos, v1_row A hS, v7_row B hS, ← JS.reshape_pos A hS b c p, ← JS.reshape_pos B hS b c p]
  rfl
theorem v29_row : val_main_v29 (F := Ideal) A B (ix2 b c)
    = JS.klQ (shapeCast JS.SR A hS) (shapeCast JS.SR B hS) (JS.row16 b c) := by
  rw [v29_apply, JS.sum_fibre reducesTo_S2x8x128x128x128_S2x8_d2_3_4 _ b c]
  unfold JS.klQ JS.klQof
  refine Finset.sum_congr rfl fun p _ => ?_
  rw [pair_pos, v1_row A hS, v7_row B hS, ← JS.reshape_pos A hS b c p, ← JS.reshape_pos B hS b c p]
  rfl

/-- The pair's halved sum of the two clamped divergences. -/
theorem v33_row : val_main_v33 (F := Ideal) A B (ix2 b c)
    = JS.cHALF * (JS.clampK (JS.klP (shapeCast JS.SR A hS) (shapeCast JS.SR B hS) (JS.row16 b c))
        + JS.clampK (JS.klQ (shapeCast JS.SR A hS) (shapeCast JS.SR B hS) (JS.row16 b c))) := by
  rw [← v21_row A B hS b c, ← v29_row A B hS b c]
  simp only [val_main_v33_apply, val_main_v32_apply, val_main_cst_22_apply, val_main_v31_apply, val_main_v22_apply,
    val_main_call6_v4_apply, val_main_call6_v3_apply, val_main_cst_14_apply, val_main_call6_v2_apply,
    val_main_call6_v1_apply, val_main_call6_v0_apply, val_main_cst_13_apply, val_main_v30_apply,
    val_main_call9_v4_apply, val_main_call9_v3_apply, val_main_cst_21_apply, val_main_call9_v2_apply,
    val_main_call9_v1_apply, val_main_call9_v0_apply, val_main_cst_20_apply]
  rfl

end Row

/-! ## The result -/

/-- The reference's result is the specification's, of the two arguments reshaped to 16 rows of 2097152 positions. -/
theorem ref_result (hS : S2x8x128x128x128.ShapeCasts JS.SR) (i : S_.Idx) :
    val_main_v35 (F := Ideal) A B i = JS.result (shapeCast JS.SR A hS) (shapeCast JS.SR B hS) := by
  rw [val_main_v35_apply, val_main_v34_apply, val_main_cst_24_apply, val_main_cst_23_apply, sum_idx2]
  unfold JS.result JS.meanJS
  rw [JS.sum_rows]
  show Ideal.div (_ + _) _ = _
  refine congrArg (fun v => Ideal.div (JS.cZ + v) JS.c16) ?_
  exact Finset.sum_congr rfl fun b _ => Finset.sum_congr rfl fun c _ => v33_row A B hS b c

end Cert.ReferenceIdeal.RV

end
-- ==== Proof.lean ====
/-
  The kernel sums the clamped inputs row by row in one pass over 128 tiles, and in a second pass the rows' two
  divergences; the reference computes the same quantities with whole-array operations and sums along the last three
  axes. Over the extended reals both are one function of the two inputs (Proof/Spec.lean): every constant is the
  same f32 word on both sides, every elementwise operation the same, and the sums differ only in grouping and order,
  which addition on the extended reals does not see. So no finiteness of the inputs is used.

  The two kernel programs' frames are the generated ones; the reference's frame is its generated run with the
  result dropped; the ideal pass rewrote nothing. For the value claim the kernel program's run is read at its result
  buffer (Proof/KRun.lean), the buffer's contents are the specification's result (Proof/KValue.lean over
  Proof/Region0.lean and Proof/Region1.lean), and so is the reference's result (Proof/RefValue.lean).
-/
import proofs.«167535_j42812234006951_1_alg».proof.Defs
import proofs.«167535_j42812234006951_1_alg».proof.Proof.Gen.Kernel
import proofs.«167535_j42812234006951_1_alg».proof.Proof.Gen.Kernel.Skeleton
import proofs.«167535_j42812234006951_1_alg».proof.Proof.Gen.Kernel.Launch
import proofs.«167535_j42812234006951_1_alg».proof.Proof.Gen.Kernel.Points
import proofs.«167535_j42812234006951_1_alg».proof.Proof.Gen.Kernel.Frame
import proofs.«167535_j42812234006951_1_alg».proof.Proof.Gen.KernelIdeal
import proofs.«167535_j42812234006951_1_alg».proof.Proof.Gen.KernelIdeal.Skeleton
import proofs.«167535_j42812234006951_1_alg».proof.Proof.Gen.KernelIdeal.Launch
import proofs.«167535_j42812234006951_1_alg».proof.Proof.Gen.KernelIdeal.Points
import proofs.«167535_j42812234006951_1_alg».proof.Proof.Gen.KernelIdeal.Frame
import proofs.«167535_j42812234006951_1_alg».proof.Proof.Gen.ReferenceIdeal
import proofs.«167535_j42812234006951_1_alg».proof.Proof.Gen.ReferenceIdeal.Run
import proofs.«167535_j42812234006951_1_alg».proof.Proof.Gen.ReferenceIdeal.Read
import proofs.«167535_j42812234006951_1_alg».proof.Proof.Gen.Pre_finite_inputs
import proofs.«167535_j42812234006951_1_alg».proof.Proof.KRun
import proofs.«167535_j42812234006951_1_alg».proof.Proof.KValue
import proofs.«167535_j42812234006951_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's result of the two inputs reshaped to 16 rows of 2097152 positions. -/
theorem algebraic : Cert.algebraic_KernelIdeal_ReferenceIdeal := by
  intro m ρ m' ρ' _ hagree
  refine ⟨fun c => fun _ => Cert.JS.result (Cert.KernelIdeal.KV.X m c) (Cert.KernelIdeal.KV.Y m c), ?_, ?_⟩
  · exact (θ_run Cert.KernelIdeal.defs _ _).mono
      (fun _ h c => ⟨(h c).1.trans (Cert.KernelIdeal.KV.result_eq m ρ c), (h c).2⟩)
      (Cert.KernelIdeal.GenV.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, (hagree c).1, (hagree c).2]
    funext i
    exact Cert.ReferenceIdeal.RV.ref_result _ _ Cert.KernelIdeal.Gen.shapeCasts_S2x8x128x128x128_S16x2097152 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
